-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S3200000 : Shape := ⟨1, ![3200000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S3200000 : S_.BroadcastsInDim S3200000 (![] : Fin 0 → Fin S3200000.rank)
  reducesTo_S3200000_S_d0 : S3200000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg9 : IVec S4096 32) (main_arg10 : IVec S4096 32) (main_v28 : IVec S_ 1) (main_v33 : IVec S4096 1) : IVec S_ 1 :=
  let main_c_12 : IVec S_ 1 := constantI S_ 1 1#1
  let main_v34 : IVec S_ 1 := (fun x v => Host.reduce IntOp.andi x v reducesTo_S4096_S_d0 h_S_) main_v33 main_c_12
  let main_v35 : IVec S_ 1 := andi main_v28 main_v34
  let main_c_13 : IVec S_ 32 := constantI S_ 32 0#32
  let main_v36 : IVec S4096 32 := broadcastInDim S4096 ![] bcast_S_S4096 main_c_13
  let main_v37 : IVec S4096 1 := cmpi .sge main_arg9 main_v36
  let main_c_14 : IVec S_ 32 := constantI S_ 32 50000#32
  let main_v38 : IVec S4096 32 := broadcastInDim S4096 ![] bcast_S_S4096 main_c_14
  let main_v39 : IVec S4096 1 := cmpi .slt main_arg9 main_v38
  let main_v40 : IVec S4096 1 := andi main_v37 main_v39
  let main_c_15 : IVec S_ 1 := constantI S_ 1 1#1
  let main_v41 : IVec S_ 1 := (fun x v => Host.reduce IntOp.andi x v reducesTo_S4096_S_d0 h_S_) main_v40 main_c_15
  let main_v42 : IVec S_ 1 := andi main_v35 main_v41
  let main_c_16 : IVec S_ 32 := constantI S_ 32 0#32
  let main_v43 : IVec S4096 32 := broadcastInDim S4096 ![] bcast_S_S4096 main_c_16
  let main_v44 : IVec S4096 1 := cmpi .sge main_arg10 main_v43
  let main_c_17 : IVec S_ 32 := constantI S_ 32 50000#32
  let main_v45 : IVec S4096 32 := broadcastInDim S4096 ![] bcast_S_S4096 main_c_17
  let main_v46 : IVec S4096 1 := cmpi .slt main_arg10 main_v45
  let main_v47 : IVec S4096 1 := andi main_v44 main_v46
  let main_c_18 : IVec S_ 1 := constantI S_ 1 1#1
  let main_v48 : IVec S_ 1 := (fun x v => Host.reduce IntOp.andi x v reducesTo_S4096_S_d0 h_S_) main_v47 main_c_18
  let main_v49 : IVec S_ 1 := andi main_v42 main_v48
  main_v49

def fn_part1 {F : FTy → Type} [FloatOps F] (main_arg4 : FVec F S3200000 .f32) (main_arg5 : FVec F S3200000 .f32) (main_arg8 : IVec S4096 32) (main_arg9 : IVec S4096 32) (main_arg10 : IVec S4096 32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S3200000 .f32 := Host.absf main_arg4
  let main_cst_6 : FVec F S_ .f32 := constant S_ .f32 0x7F800000#32
  let main_v20 : FVec F S3200000 .f32 := broadcastInDim S3200000 ![] bcast_S_S3200000 main_cst_6
  let main_v21 : IVec S3200000 1 := cmpf .olt main_v19 main_v20
  let main_c_7 : IVec S_ 1 := constantI S_ 1 1#1
  let main_v22 : IVec S_ 1 := (fun x v => Host.reduce IntOp.andi x v reducesTo_S3200000_S_d0 h_S_) main_v21 main_c_7
  let main_v23 : IVec S_ 1 := andi main_v18 main_v22
  let main_v24 : FVec F S3200000 .f32 := Host.absf main_arg5
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  let main_c_10 : IVec S_ 32 := constantI S_ 32 0#32
  let main_v29 : IVec S4096 32 := broadcastInDim S4096 ![] bcast_S_S4096 main_c_10
  let main_v30 : IVec S4096 1 := cmpi .sge main_arg8 main_v29
  let main_c_11 : IVec S_ 32 := constantI S_ 32 100000#32
  let main_v31 : IVec S4096 32 := broadcastInDim S4096 ![] bcast_S_S4096 main_c_11
  let main_v32 : IVec S4096 1 := cmpi .slt main_arg8 main_v31
  let main_v33 : IVec S4096 1 := andi main_v30 main_v32
  fn_part2 (F := F) main_arg9 main_arg10 main_v28 main_v33

def fn {F : FTy → Type} [FloatOps F] (main_arg0 : FVec F S100000x64 .f32) (main_arg1 : FVec F S50000x64 .f32) (main_arg2 : FVec F S100000x1 .f32) (main_arg3 : FVec F S50000x1 .f32) (main_arg4 : FVec F S3200000 .f32) (main_arg5 : FVec F S3200000 .f32) (main_arg6 : IVec S3200000 32) (main_arg7 : IVec S3200000 32) (main_arg8 : IVec S4096 32) (main_arg9 : IVec S4096 32) (main_arg10 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_arg8 main_arg9 main_arg10 main_v13 main_v16
-- ==== Kernel.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S3200000 : Shape := ⟨1, ![3200000]⟩
abbrev S4096 : Shape := ⟨1, ![4096]⟩
abbrev S_ : Shape := ⟨0, ![]⟩
abbrev S3200000x1 : Shape := ⟨2, ![3200000, 1]⟩
abbrev S3200000x64 : Shape := ⟨2, ![3200000, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S50000x128 : Shape := ⟨2, ![50000, 128]⟩
abbrev S100000x1x128 : Shape := ⟨3, ![100000, 1, 128]⟩
abbrev S4096x1x128 : Shape := ⟨3, ![4096, 1, 128]⟩
abbrev S1x1x128 : Shape := ⟨3, ![1, 1, 128]⟩
abbrev S1 : Shape := ⟨1, ![1]⟩
abbrev S4096x128 : Shape := ⟨2, ![4096, 128]⟩
abbrev S8192 : Shape := ⟨1, ![8192]⟩
abbrev S50000x1x128 : Shape := ⟨3, ![50000, 1, 128]⟩
abbrev S8192x1x128 : Shape := ⟨3, ![8192, 1, 128]⟩
abbrev S8192x128 : Shape := ⟨2, ![8192, 128]⟩

abbrev nBuf : Space → Nat
  | .hbm => 52
  | .vmem => 24
  | .smem => 2
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x1, .f32⟩
  | .hbm, ⟨3, _⟩ => ⟨S50000x1, .f32⟩
  | .hbm, ⟨4, _⟩ => ⟨S3200000, .f32⟩
  | .hbm, ⟨5, _⟩ => ⟨S3200000, .f32⟩
  | .hbm, ⟨6, _⟩ => ⟨S3200000, .i32⟩
  | .hbm, ⟨7, _⟩ => ⟨S3200000, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x1, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x64, .f32⟩
  | .hbm, ⟨35, _⟩ => ⟨S3200000x1, .f32⟩
  | .hbm, ⟨36, _⟩ => ⟨S3200000x64, .f32⟩
  | .hbm, ⟨37, _⟩ => ⟨S3200000x64, .f32⟩
  | .hbm, ⟨38, _⟩ => ⟨S_, .f32⟩
  | .hbm, ⟨39, _⟩ => ⟨S50000x64, .f32⟩
  | .hbm, ⟨40, _⟩ => ⟨S3200000x1, .i32⟩
  | .hbm, ⟨41, _⟩ => ⟨S50000x64, .f32⟩
  | .hbm, ⟨42, _⟩ => ⟨S100000x128, .f32⟩
  | .hbm, ⟨43, _⟩ => ⟨S50000x128, .f32⟩
  | .hbm, ⟨44, _⟩ => ⟨S100000x1x128, .f32⟩
  | .hbm, ⟨45, _⟩ => ⟨S4096x1x128, .f32⟩
  | .hbm, ⟨46, _⟩ => ⟨S4096x128, .f32⟩
  | .hbm, ⟨47, _⟩ => ⟨S50000x1x128, .f32⟩
  | .hbm, ⟨48, _⟩ => ⟨S8192x1x128, .f32⟩
  | .hbm, ⟨49, _⟩ => ⟨S8192x128, .f32⟩
  | .hbm, ⟨50, _⟩ => ⟨S4096x128, .f32⟩
  | .hbm, ⟨51, _⟩ => ⟨S4096x128, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .smem, ⟨0, _⟩ => ⟨S4096, .i32⟩
  | .local _ .smem, ⟨1, _⟩ => ⟨S8192, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg9 : Ref sig .tc := ⟨.hbm, 8, rfl⟩
abbrev main_arg10 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_arg8 : Ref sig .tc := ⟨.smem, 0, rfl⟩
abbrev main_v31 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc3_sem0_0 : DmaSem sig := 20
abbrev cc3_sem0_1 : DmaSem sig := 21
abbrev cc3_sem1_0 : DmaSem sig := 22
abbrev cc3_sem1_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4096], ![false]⟩

abbrev pre2 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S4096.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8192], ![false]⟩

abbrev pre3 : Pipeline.Prefetch sig := ⟨1, ![main_v31.idx], fun | 0 => main_v31.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S8192.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S50000x64 : S_.BroadcastsInDim S50000x64 (![] : Fin 0 → Fin S50000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  shapeCasts_S100000x128_S100000x1x128 : S100000x128.ShapeCasts S100000x1x128
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S4096x1x128_S4096x128 : S4096x1x128.ShapeCasts S4096x128
  concatenates_S4096_S4096_S8192_d0 : Shape.Concatenates [S4096, S4096] S8192 0
  shapeCasts_S50000x128_S50000x1x128 : S50000x128.ShapeCasts S50000x1x128
  shapeCasts_S8192x1x128_S8192x128 : S8192x1x128.ShapeCasts S8192x128
  slices_S8192x128_S4096x128_0_0 : S8192x128.Slices ![0, 0] S4096x128
  slices_S8192x128_S4096x128_4096_0 : S8192x128.Slices ![4096, 0] S4096x128
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  k2_off1_inb : ∀ i : grid2.Coords, ∀ a, (k2_off1 i) a + S1.size a ≤ S4096.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S4096x1x128.size a
  hwx2_1 : ∀ i : grid2.Coords, EltTy.bits .f32 = 32 ∨ (Rect.block (s := S4096x1x128) S1x1x128.size (cc2_transform_1 i) (hinb2_1 i)).WholeWords (EltTy.packing .f32)
  hrank3 : 0 < grid3.rank
  k3_off1_inb : ∀ i : grid3.Coords, ∀ a, (k3_off1 i) a + S1.size a ≤ S8192.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x128.size a ≤ S8192x1x128.size a
  hwx3_1 : ∀ i : grid3.Coords, EltTy.bits .f32 = 32 ∨ (Rect.block (s := S8192x1x128) S1x1x128.size (cc3_transform_1 i) (hinb3_1 i)).WholeWords (EltTy.packing .f32)

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev spec2_0 : Pipeline.WinSpec sig grid2.rank :=
  Pipeline.WinSpec.ofSpec (Memref.whole main_v28) S1x1x128.size reads2_0 false false 2 stage2_0 sem2_0 nbuf2_0 hstage2_0

abbrev spec2_1 : Pipeline.WinSpec sig grid2.rank :=
  Pipeline.WinSpec.ofSpec (Memref.whole main_v29) S1x1x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S100000x1x128.size a), EltTy.bits .f32 = 32 ∨ (Rect.block (s := S100000x1x128) S1x1x128.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v32) S1x1x128.size reads3_0 false false 2 stage3_0 sem3_0 nbuf3_0 hstage3_0

abbrev spec3_1 : Pipeline.WinSpec sig grid3.rank :=
  Pipeline.WinSpec.ofSpec (Memref.whole main_v33) S1x1x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S50000x1x128.size a), EltTy.bits .f32 = 32 ∨ (Rect.block (s := S50000x1x128) S1x1x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))

class Facts : Prop extends Facts₀ where
  harr2 : ∀ w, (spec2 w).arr.IsWhole
  harr3 : ∀ w, (spec3 w).arr.IsWhole

variable [Facts]
-- ==== ReferenceIdeal.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S3200000 : Shape := ⟨1, ![3200000]⟩
abbrev S4096 : Shape := ⟨1, ![4096]⟩
abbrev S3200000x1 : Shape := ⟨2, ![3200000, 1]⟩
abbrev S_ : Shape := ⟨0, ![]⟩
abbrev S3200000x64 : Shape := ⟨2, ![3200000, 64]⟩
abbrev S100000x128 : Shape := ⟨2, ![100000, 128]⟩
abbrev S50000x128 : Shape := ⟨2, ![50000, 128]⟩
abbrev S4096x1 : Shape := ⟨2, ![4096, 1]⟩
abbrev S4096x128 : Shape := ⟨2, ![4096, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x1, .f32⟩
  | .hbm, ⟨3, _⟩ => ⟨S50000x1, .f32⟩
  | .hbm, ⟨4, _⟩ => ⟨S3200000, .f32⟩
  | .hbm, ⟨5, _⟩ => ⟨S3200000, .f32⟩
  | .hbm, ⟨6, _⟩ => ⟨S3200000, .i32⟩
  | .hbm, ⟨7, _⟩ => ⟨S3200000, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S3200000x64, .f32⟩
  | .hbm, ⟨22, _⟩ => ⟨S3200000x64, .f32⟩
  | .hbm, ⟨23, _⟩ => ⟨S_, .f32⟩
  | .hbm, ⟨24, _⟩ => ⟨S100000x64, .f32⟩
  | .hbm, ⟨25, _⟩ => ⟨S3200000x1, .i32⟩
  | .hbm, ⟨26, _⟩ => ⟨S100000x64, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S3200000x64, .f32⟩
  | .hbm, ⟨38, _⟩ => ⟨S3200000x64, .f32⟩
  | .hbm, ⟨39, _⟩ => ⟨S_, .f32⟩
  | .hbm, ⟨40, _⟩ => ⟨S50000x64, .f32⟩
  | .hbm, ⟨41, _⟩ => ⟨S3200000x1, .i32⟩
  | .hbm, ⟨42, _⟩ => ⟨S50000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S100000x128, .f32⟩
  | .hbm, ⟨50, _⟩ => ⟨S50000x128, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x128, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x128, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S50000x64 : S_.BroadcastsInDim S50000x64 (![] : Fin 0 → Fin S50000x64.rank)
  bcast_S100000x1_S100000x64_0_1 : S100000x1.BroadcastsInDim S100000x64 (![0, 1] : Fin 2 → Fin S100000x64.rank)
  bcast_S50000x1_S50000x64_0_1 : S50000x1.BroadcastsInDim S50000x64 (![0, 1] : Fin 2 → Fin S50000x64.rank)
  concatenates_S100000x64_S100000x64_S100000x128_d1 : Shape.Concatenates [S100000x64, S100000x64] S100000x128 1
  concatenates_S50000x64_S50000x64_S50000x128_d1 : Shape.Concatenates [S50000x64, S50000x64] S50000x128 1
  bcast_S_S4096 : S_.BroadcastsInDim S4096 (![] : Fin 0 → Fin S4096.rank)
  bcast_S4096_S4096x1_0 : S4096.BroadcastsInDim S4096x1 (![0] : Fin 1 → Fin S4096x1.rank)
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S100000x128_S4096x1_S4096x128_1_0_n_n_0_1_1128_wf : GatherDims.WF S100000x128 S4096x1 S4096x128 [1] [0] [] [0] [] 1 ![1, 128]
  gather_S50000x128_S4096x1_S4096x128_1_0_n_n_0_1_1128_wf : GatherDims.WF S50000x128 S4096x1 S4096x128 [1] [0] [] [0] [] 1 ![1, 128]

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf

class Facts : Prop extends Facts₀ where

variable [Facts]
-- ==== Proof.ResidualUsersI.lean ====
/-
  The residual-concat region over the user table, one grid point at a time.  At a point the body is handed three
  input blocks — 5000 rows of the embedding table (64 wide), the same rows of the degree column (1 wide) and of the
  aggregated messages (64 wide) — and writes one output block of 5000 rows, 128 wide: the embedding rows in the left
  half, messages + embedding · degree in the right half.  Stated here for any entry contents `V` of the core's
  buffers: what each input block is, what the output block holds after the body as one function of the three input
  blocks, the body's triple, the region's proof data and its obligation at every point.
-/
import proofs.«418848_j35158602285525_2_alg».proof.Proof.Gen.KernelIdeal.Launch
import proofs.«418848_j35158602285525_2_alg».proof.Proof.Gen.KernelIdeal.Skeleton
import proofs.«418848_j35158602285525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.ResidualUsers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or kept it: for any proof data whose entry array is `V`'s and whose body leaves the block in place.  One
    statement per input window (the embedding rows, the degree column, the aggregated messages). -/
theorem before_in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole 5000 × 64 block, the whole 5000 × 1 column block, the whole 5000 × 128 output block. -/
abbrev rWide : Rect S5000x64 := Rect.unit (s := S5000x64) ![0, 0] S5000x64.size inb_S5000x64_S5000x64_0_0
abbrev rCol : Rect S5000x1 := Rect.unit (s := S5000x1) ![0, 0] S5000x1.size inb_S5000x1_S5000x1_0_0
abbrev rOut : Rect S5000x128 := Rect.unit (s := S5000x128) ![0, 0] S5000x128.size inb_S5000x128_S5000x128_0_0

/-- The output block after the body: its one store, of the concatenation of the embedding block with
    messages + embedding · degree. -/
def outBlk (e : Vec F S5000x64 .f32) (d : Vec F S5000x1 .f32) (g : Vec F S5000x64 .f32) : Vec F S5000x128 .f32 :=
  View.canon [⟨rOut, k0_pay1 (View.ld d rCol) (View.ld g rWide) (View.ld e rWide) (View.ld e rWide)⟩]

/-- The one store covers the output block. -/
theorem cover_out (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

set_option maxHeartbeats 1000000 in
/-- The body on whole staging memrefs: the three inputs at read contents, the output at anything; it ends with the
    inputs as they were and the output at `outBlk` of the inputs. -/
theorem sound_kernel (c : Dev nD) (E : Set ℕ) (i : grid0.Coords)
    (arg1 : Memref sig .tc .vmem S5000x64 .f32) (harg1 : arg1.IsWhole) (arg2 : Memref sig .tc .vmem S5000x1 .f32) (harg2 : arg2.IsWhole)
    (arg3 : Memref sig .tc .vmem S5000x64 .f32) (harg3 : arg3.IsWhole) (arg4 : Memref sig .tc .vmem S5000x128 .f32) (harg4 : arg4.IsWhole)
    (e : Vec F S5000x64 .f32) (d : Vec F S5000x1 .f32) (g : Vec F S5000x64 .f32) (K : PUnit → sProp 𝕄) :
    iprop(owns (c : Thread nD τ) arg1 fullShare e ∗ owns (c : Thread nD τ) arg2 fullShare d ∗ owns (c : Thread nD τ) arg3 fullShare g
        ∗ (∃ o, owns (c : Thread nD τ) arg4 fullShare o)
        ∗ (iprop(owns (c : Thread nD τ) arg1 fullShare e ∗ owns (c : Thread nD τ) arg2 fullShare d ∗ owns (c : Thread nD τ) arg3 fullShare g
            ∗ owns (c : Thread nD τ) arg4 fullShare (outBlk e d g)) -∗ K ⟨⟩))
      ⊢ wp frame (wpE (defs₀ (F := F)) Variants.none c none) E (cc0__residual_concat_kernel i arg1 harg1 arg2 harg2 arg3 harg3 arg4 harg4) K := by
  simp only [cc0__residual_concat_kernel_eq_skeleton]; unfold cc0__residual_concat_kernel_skel
  unfold owns
  iintro ⟨⟨%f1, %hf1, H1⟩, ⟨%f2, %hf2, H2⟩, ⟨%f3, %hf3, H3⟩, ⟨%o, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core `c`: the arrays as the region finds them; after the body at point `t` each input's
    buffer at its block and the output's at `outBlk` of the three input blocks; the invariant the scoped rest and the
    generator register, untouched; nothing owed; whole shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outBlk (blk V c 0 t) (blk V c 1 t) (blk V c 2 t) := by dsimp only [dat]

theorem before_0 (c : Dev nD) (t : Fin cfg0.N) (d) : (dat V c).before 0 t d = blk V c 0 t :=
  before_in0_of V (dat V c) (A_eq V c 0) (after_0 V c) t d
theorem before_1 (c : Dev nD) (t : Fin cfg0.N) (d) : (dat V c).before 1 t d = blk V c 1 t :=
  before_in1_of V (dat V c) (A_eq V c 1) (after_1 V c) t d
theorem before_2 (c : Dev nD) (t : Fin cfg0.N) (d) : (dat V c).before 2 t d = blk V c 2 t :=
  before_in2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.ResidualUsers

end
-- ==== Proof.GatherUsersI.lean ====
/-
  The row-gather region over the user table, one grid point at a time.  Point `t` of its 4096 is handed ONE row of
  the [100000, 1, 128] table — the row whose number the prefetched index table holds at `t` — and copies it into row
  `t` of the [4096, 1, 128] result.  Stated for any admissible contents `a` of the index table and any entry contents
  `V` of the core's buffers: the row block, the output row after the body (the input row itself), the body's triple,
  the region's proof data — whose invariant carries the index table along, whole and unread by the body — and its
  obligation at every point.
-/
import proofs.«418848_j35158602285525_2_alg».proof.Proof.Gen.KernelIdeal.Launch
import proofs.«418848_j35158602285525_2_alg».proof.Proof.Gen.KernelIdeal.Skeleton
import proofs.«418848_j35158602285525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.GatherUsers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

/-- Window `w`'s block at point `t`, read off its array as the region finds it: for the table window, the row the
    index table names at `t`. -/
def blk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The input window's current staging buffer holds its row at every point, whether the pipeline fetched it there or
    kept it (two consecutive points naming the same row). -/
theorem before_in0_of {c : Dev nD} (dat : Dat τ (Elt F) Unit ℕ (UR sig nD τ) ℕ (cfg2 a) c) (hA : dat.A 0 = V c (Pipeline.arrRef spec2 0))
    (hafter : ∀ t, dat.after 0 t = blk a V c 0 t) (t : Fin (cfg2 a).N) (d) : dat.before 0 t d = blk a V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole one-row block. -/
abbrev rRow : Rect S1x1x128 := Rect.unit (s := S1x1x128) ![0, 0, 0] S1x1x128.size inb_S1x1x128_S1x1x128_0_0_0

/-- The output row after the body: its one store, of the input row. -/
def outRow (x : Vec F S1x1x128 .f32) : Vec F S1x1x128 .f32 :=
  View.canon [⟨rRow, k2_pay1 (View.ld x rRow)⟩]

theorem cover_out (p0 : Vec F S1x1x128 .f32) (y : S1x1x128.Idx) :
    ∃ pc ∈ ([⟨rRow, p0⟩] : List (View.Piece (Elt F) S1x1x128 .f32)), y ∈ pc.1.set :=
  View.cover_of_tiled [⟨rRow, p0⟩] S1x1x128.size (by rfl) y

set_option maxHeartbeats 1000000 in
/-- The body on whole staging memrefs: the input row at read contents, the output row at anything; it ends with the
    input as it was and the output at `outRow` of it.  The index table's memref is an argument the body never touches. -/
theorem sound_kernel (c : Dev nD) (E : Set ℕ) (i : grid2.Coords)
    (arg1 : Memref sig .tc .smem S4096 .i32) (harg1 : arg1.IsWhole)
    (arg2 : Memref sig .tc .vmem S1x1x128 .f32) (harg2 : arg2.IsWhole) (arg3 : Memref sig .tc .vmem S1x1x128 .f32) (harg3 : arg3.IsWhole)
    (x : Vec F S1x1x128 .f32) (K : PUnit → sProp 𝕄) :
    iprop(owns (c : Thread nD τ) arg2 fullShare x ∗ (∃ o, owns (c : Thread nD τ) arg3 fullShare o)
        ∗ (iprop(owns (c : Thread nD τ) arg2 fullShare x ∗ owns (c : Thread nD τ) arg3 fullShare (outRow x)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f2, %hf2, H2⟩, ⟨%o, %f3, -, H3⟩, Hk⟩
  subst hf2
  sl_exec
  sl_step
  iapply Hk
  isplitl [H2]
  · iexists f2; isplitr; · ipureintro; rfl
    iexact H2
  iexists _; isplitr
  swap; · iexact H3
  ipureintro
  exact View.read_writes_eq_canon _ _ _ (cover_out _)

/-- What rides through the region beside the staging buffers: the scoped rest and the generator register, and the
    index table whole at its contents. -/
abbrev inv (c : Dev nD) : sProp 𝕄 :=
  iprop(Pipeline.ΦA spec2 c ∗ Pipeline.prefHeld (Ix := Unit) (Name := ℕ) (U := UR sig nD τ) (Lvl := ℕ) pre2 c (fun _ => fullShare) a.1)

/-- The region's proof data on core `c`. -/
def dat (c : Dev nD) : Dat τ (Elt F) Unit ℕ (UR sig nD τ) ℕ (cfg2 a) c where
  A w := V c (Pipeline.arrRef spec2 w)
  after w t := match w with
    | ⟨0, _⟩ => blk a V c 0 t
    | ⟨1, _⟩ => outRow (blk a V c 0 t)
  Φ _ := inv a c
  q _ := fullShare
  owed _ := 0

theorem A_eq (c : Dev nD) (w : Fin (cfg2 a).W) : (dat a V c).A w = V c (Pipeline.arrRef spec2 w) := by
  dsimp only [dat]
theorem after_0 (c : Dev nD) (t : Fin (cfg2 a).N) : (dat a V c).after 0 t = blk a V c 0 t := by dsimp only [dat]; rfl
theorem after_1 (c : Dev nD) (t : Fin (cfg2 a).N) : (dat a V c).after 1 t = outRow (blk a V c 0 t) := by dsimp only [dat]; rfl
theorem before_0 (c : Dev nD) (t : Fin (cfg2 a).N) (d) : (dat a V c).before 0 t d = blk a V c 0 t :=
  before_in0_of a V (dat a V c) (A_eq a V c 0) (after_0 a V c) t d

/-- Each window's current staging memref at point `t`, and the body as the pipeline calls it there. -/
abbrev st_0 (t : Fin (cfg2 a).N) : Memref sig .tc .vmem S1x1x128 .f32 := spec2_0.stage ((cfg2 a).slots t 0)
abbrev st_1 (t : Fin (cfg2 a).N) : Memref sig .tc .vmem S1x1x128 .f32 := spec2_1.stage ((cfg2 a).slots t 1)
abbrev bodyAt (t : Fin (cfg2 a).N) : Prog (TpuEff nD τ sig (Elt F) Λ₀ .tc) PUnit :=
  cc2__gather_kernel (grid2.coords t) (Memref.whole main_arg8) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))

def bodyPre (c : Dev nD) (t : Fin (cfg2 a).N) : sProp 𝕄 :=
  iprop((dat a V c).Φ t.castSucc ∗ (dat a V c).owesAt () t.castSucc
    ∗ (∃ d, owns (c : Thread nD τ) (st_0 a t) fullShare ((dat a V c).before 0 t d))
    ∗ (∃ d, owns (c : Thread nD τ) (st_1 a t) fullShare ((dat a V c).before 1 t d)))

def bodyPost (c : Dev nD) (t : Fin (cfg2 a).N) : sProp 𝕄 :=
  iprop((dat a V c).Φ t.succ ∗ (dat a V c).owesAt () t.succ
    ∗ owns (c : Thread nD τ) (st_0 a t) fullShare ((dat a V c).after 0 t)
    ∗ owns (c : Thread nD τ) (st_1 a t) fullShare ((dat a V c).after 1 t))

theorem sound_body (c : Dev nD) (t : Fin (cfg2 a).N) :
    bodyPre a V c t ⊢ wp frame (wpE (defs₀ (F := F)) Variants.none c none) Set.univ (bodyAt a t) (fun _ => bodyPost a V c t) := by
  unfold bodyPre bodyPost bodyAt
  simp only [before_0]
  rw [show (dat a V c).Φ t.succ = (dat a V c).Φ t.castSucc from rfl,
    show (dat a V c).owesAt () t.succ = (dat a V c).owesAt () t.castSucc from rfl,
    after_0, after_1]
  iintro ⟨HΦ, Ho, ⟨%d0, H0⟩, ⟨%d1, H1⟩⟩
  iapply (sound_kernel c Set.univ _ _ _ _ _ _ _ (blk a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dat (F := F) a V c) (defs₀ (F := F)) Variants.none () Set.univ := fun t => by
  rw [bigSep_W2, bigSep_W2]
  exact sound_body a V c t

end Cert.KernelIdeal.GatherUsers

end
-- ==== Proof.TablesI.lean ====
/-
  The two prefetched index tables as functions of the launch memory, and the precondition at any float instance.
  The user-batch gather reads its row numbers from the `user` argument itself; the item-batch gather reads them from
  the concatenation of `item_i` and `item_j` (8192 words: the first 4096 are `item_i`, the last 4096 `item_j`).
  The gathers' side conditions say that every row number names a row of its table: `OkUsers`, `OkItems`.
-/
import proofs.«418848_j35158602285525_2_alg».proof.Defs
import proofs.«418848_j35158602285525_2_alg».proof.Proof.Gen.KernelIdeal
import proofs.«418848_j35158602285525_2_alg».proof.Proof.Gen.Pre_finite_inputs

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The certificate's precondition read at any float instance: on every device the printed predicate of the eleven
    argument arrays is all ones (every float finite; every `user` word in [0, 100000), every `item_i` and `item_j`
    word in [0, 50000)). -/
def PreAt : Prop :=
  ∀ c : Dev nD,
    (Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)))
      = (fun _ => 1#1)

/-- The `user`, `item_i` and `item_j` arguments on the one device. -/
abbrev userArg : IVec S4096 32 := m (((0 : Dev nD) : Thread nD τ).loc main_arg8)
abbrev itemIArg : IVec S4096 32 := m (((0 : Dev nD) : Thread nD τ).loc main_arg9)
abbrev itemJArg : IVec S4096 32 := m (((0 : Dev nD) : Thread nD τ).loc main_arg10)

/-- The 8192 item row numbers: `item_i` then `item_j`. -/
def itemIdx : IVec S8192 32 :=
  concatenate S8192 0 [⟨S4096, itemIArg m⟩, ⟨S4096, itemJArg m⟩] concatenates_S4096_S4096_S8192_d0

/-- The user-batch gather's table: the `user` argument. -/
def tblUsers : pre2.Contents (Elt F) := fun k => m (((0 : Dev nD) : Thread nD τ).loc (pre2.ref k))

/-- The item-batch gather's table: the concatenated row numbers. -/
def tblItems : pre3.Contents (Elt F) := fun
  | ⟨0, _⟩ => itemIdx m
  | ⟨_ + 1, h⟩ => absurd h (Nat.not_lt.2 (Nat.le_add_left _ _))

/-- Every user row number names a row of the [100000, 1, 128] table; every item row number a row of the
    [50000, 1, 128] table: the pipelines' side conditions at these tables. -/
abbrev OkUsers : Prop := ok2 (F := F) (tblUsers m)
abbrev OkItems : Prop := ok3 (F := F) (tblItems m)

end Cert.KernelIdeal.Tables

end
-- ==== Proof.RunDefsI.lean ====
/-
  The buffer contents at every boundary of @main, as a fold from the launch memory: a host stretch applies its
  operations; a kernel region leaves its arrays at what its write-backs make of them and every other buffer as it
  found it.  Then the two index tables' admissible contents and every region's proof data at its entry contents.
-/
import proofs.«418848_j35158602285525_2_alg».proof.Proof.ResidualUsersI
import proofs.«418848_j35158602285525_2_alg».proof.Proof.ResidualItemsI
import proofs.«418848_j35158602285525_2_alg».proof.Proof.GatherUsersI
import proofs.«418848_j35158602285525_2_alg».proof.Proof.GatherItemsI
import proofs.«418848_j35158602285525_2_alg».proof.Proof.TablesI
import proofs.«418848_j35158602285525_2_alg».proof.Proof.Gen.KernelIdeal.Regions
import Idealize.ShloMosaic.Lib.StableHlo.Run

set_option maxRecDepth 16384

noncomputable section

namespace Cert.KernelIdeal.Run

open Cert.KernelIdeal Cert.KernelIdeal.Gen Cert.KernelIdeal.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch, -/
abbrev W0 : Dev nD → Valuation τ sig (Elt F) := fun c b => m (c, b)
/-- after the first host stretch (the two segment sums): the user residual-concat region's entry, -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at that region's exit: its arrays at what the pipeline leaves, every other buffer as entered, -/
def W2 (c : Dev nD) : Valuation τ sig (Elt F) :=
  Pipeline.withArrays spec0 c (W1 m c) fun w => (ResidualUsers.dat (V1 m) c).arrAt w cfg0.N
theorem W2_arr (c : Dev nD) (w : Fin cfg0.W) :
    W2 m c (Proc.devRef .tc (Pipeline.arrRef spec0 w)) = (ResidualUsers.dat (V1 m) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (ResidualUsers.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- at the item residual-concat region's exit (entered straight from the user region's exit), -/
def W3 (c : Dev nD) : Valuation τ sig (Elt F) :=
  Pipeline.withArrays spec1 c (W2 m c) fun w => (ResidualItems.dat (V2 m) c).arrAt w cfg1.N
theorem W3_arr (c : Dev nD) (w : Fin cfg1.W) :
    W3 m c (Proc.devRef .tc (Pipeline.arrRef spec1 w)) = (ResidualItems.dat (V2 m) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (ResidualItems.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- after the reshape of the user table to [100000, 1, 128]: the user-batch gather's entry, -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

variable (a2 : (pcfg2 (F := F)).Adm) (a3 : (pcfg3 (F := F)).Adm)

/-- at the user-batch gather's exit, -/
def W5 (c : Dev nD) : Valuation τ sig (Elt F) :=
  Pipeline.withArrays spec2 c (W4 m c) fun w => (GatherUsers.dat a2 (V4 m) c).arrAt w (cfg2 a2).N
theorem W5_arr (c : Dev nD) (w : Fin (cfg2 a2).W) :
    W5 m a2 c (Proc.devRef .tc (Pipeline.arrRef spec2 w)) = (GatherUsers.dat a2 (V4 m) c).arrAt w (cfg2 a2).N := by
  unfold W5; exact Pipeline.withArrays_arr spec2 winFacts2.arr_inj c _ _ w
theorem W5_of_ne (c : Dev nD) (b : Ref sig .tc) (hb : ∀ w, Pipeline.arrRef spec2 w ≠ b) :
    W5 m a2 c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m a2 c b
theorem hF2 (c : Dev nD) (w : Fin (cfg2 a2).W) : (GatherUsers.dat a2 (V4 m) c).arrAt w (cfg2 a2).N = V5 m a2 c (Pipeline.arrRef spec2 w) :=
  (W5_arr m a2 c w).symm
theorem hrest2 (c : Dev nD) : ∀ b, b ∉ Finset.univ.image (Pipeline.arrRef spec2) → V5 m a2 c b = V4 m c b :=
  fun b hb => W5_of_ne m a2 c b fun w e => hb (Finset.mem_image.mpr ⟨w, Finset.mem_univ _, e⟩)

/-- after the next host stretch (the gathered user rows reshaped to [4096, 128]; the item row numbers concatenated;
    the item table reshaped to [50000, 1, 128]): the item-batch gather's entry, -/
abbrev W6 : Dev nD → Valuation τ sig (Elt F) := fun c => StableHlo.after hostOps3 (W5 m a2 c)
abbrev V6 : (c : Dev nD) → (b : Ref sig .tc) → Buf (Elt F) ((c : Thread nD τ).loc b) := fun c b => W6 m a2 c b

/-- at the item-batch gather's exit, -/
def W7 (c : Dev nD) : Valuation τ sig (Elt F) :=
  Pipeline.withArrays spec3 c (W6 m a2 c) fun w => (GatherItems.dat a3 (V6 m a2) c).arrAt w (cfg3 a3).N
theorem W7_arr (c : Dev nD) (w : Fin (cfg3 a3).W) :
    W7 m a2 a3 c (Proc.devRef .tc (Pipeline.arrRef spec3 w)) = (GatherItems.dat a3 (V6 m a2) c).arrAt w (cfg3 a3).N := by
  unfold W7; exact Pipeline.withArrays_arr spec3 winFacts3.arr_inj c _ _ w
theorem W7_of_ne (c : Dev nD) (b : Ref sig .tc) (hb : ∀ w, Pipeline.arrRef spec3 w ≠ b) :
    W7 m a2 a3 c (Proc.devRef .tc b) = W6 m a2 c (Proc.devRef .tc b) := by
  unfold W7; exact Pipeline.withArrays_of_ne spec3 c _ _ b hb
abbrev V7 : (c : Dev nD) → (b : Ref sig .tc) → Buf (Elt F) ((c : Thread nD τ).loc b) := fun c b => W7 m a2 a3 c b
theorem hF3 (c : Dev nD) (w : Fin (cfg3 a3).W) : (GatherItems.dat a3 (V6 m a2) c).arrAt w (cfg3 a3).N = V7 m a2 a3 c (Pipeline.arrRef spec3 w) :=
  (W7_arr m a2 a3 c w).symm
theorem hrest3 (c : Dev nD) : ∀ b, b ∉ Finset.univ.image (Pipeline.arrRef spec3) → V7 m a2 a3 c b = V6 m a2 c b :=
  fun b hb => W7_of_ne m a2 a3 c b fun w e => hb (Finset.mem_image.mpr ⟨w, Finset.mem_univ _, e⟩)

/-- and after the last host stretch (the gathered item rows reshaped to [8192, 128] and cut into its two halves):
    what the program returns from. -/
abbrev W8 : Dev nD → Valuation τ sig (Elt F) := fun c => StableHlo.after hostOps4 (W7 m a2 a3 c)

/-! ## The tables at their regions' entries -/

/-- A reference that no host stretch before the user-batch gather writes and that is no array of the two
    residual-concat regions still holds its launch contents at that gather's entry. -/
theorem W4_launch (c : Dev nD) (r : Ref sig .tc) (h0 : r ∉ hostOps0_W) (h2 : r ∉ hostOps2_W)
    (hn0 : ∀ w, Pipeline.arrRef spec0 w ≠ r) (hn1 : ∀ w, Pipeline.arrRef spec1 w ≠ r) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r hn1
    _ = W1 m c (Proc.devRef .tc r) := W2_of_ne m c r hn0
    _ = W0 m c (Proc.devRef .tc r) := StableHlo.after_of_writes_sub hostOps0 _ hostOps0_writes h0
    _ = m ((c : Thread nD τ).loc r) := rfl

/-- At the user-batch gather's entry the index table still holds the `user` argument: nothing before it writes it. -/
theorem V4_table (c : Dev nD) (k : Fin pre2.K) : V4 m c (pre2.ref k) = tblUsers m k := by
  obtain rfl : c = 0 := Subsingleton.elim _ _
  match k with
  | ⟨0, _⟩ => exact W4_launch m 0 main_arg8 (by decide) (by decide) (by decide) (by decide)

/-- At the item-batch gather's entry the index table holds the concatenated item row numbers: the host stretch just
    before wrote them from the two arguments, which nothing before it writes. -/
theorem V6_table (c : Dev nD) (k : Fin pre3.K) : V6 m a2 c (pre3.ref k) = tblItems m k := by
  obtain rfl : c = 0 := Subsingleton.elim _ _
  match k with
  | ⟨0, _⟩ =>
    have e9 : W5 m a2 0 (Proc.devRef .tc main_arg9) = m (((0 : Dev nD) : Thread nD τ).loc main_arg9) :=
      (W5_of_ne m a2 0 main_arg9 (by decide)).trans (W4_launch m 0 main_arg9 (by decide) (by decide) (by decide) (by decide))
    have e10 : W5 m a2 0 (Proc.devRef .tc main_arg10) = m (((0 : Dev nD) : Thread nD τ).loc main_arg10) :=
      (W5_of_ne m a2 0 main_arg10 (by decide)).trans (W4_launch m 0 main_arg10 (by decide) (by decide) (by decide) (by decide))
    show StableHlo.after hostOps3 (W5 m a2 0) (Proc.devRef .tc main_v31) = itemIdx m
    have e : (StableHlo.after hostOps3 (W5 m a2 0) (Proc.devRef .tc main_v31) : IVec S8192 32)
        = concatenate S8192 0 [⟨S4096, W5 m a2 0 (Proc.devRef .tc main_arg9)⟩, ⟨S4096, W5 m a2 0 (Proc.devRef .tc main_arg10)⟩] concatenates_S4096_S4096_S8192_d0 := by
      after_results
    rw [e, e9, e10]; rfl

/-! ## The proof-data family -/

/-- The tables' admissible contents, pipeline by pipeline: the two residual-concat regions have none. -/
abbrev adm : (p : Fin 4) → (pcfgs (F := F) p).Adm := fun
  | ⟨0, _⟩ => cfg0.toPCfg_adm
  | ⟨1, _⟩ => cfg1.toPCfg_adm
  | ⟨2, _⟩ => a2
  | ⟨3, _⟩ => a3
  | ⟨_ + 4, h⟩ => absurd h (Nat.not_lt.2 (Nat.le_add_left _ _))

/-- Every pipeline's proof data, each at its region's entry contents. -/
def pdats : (p : Fin 4) → (c : Dev nD) → Dat τ (Elt F) Unit ℕ (UR sig nD τ) ℕ (Pipeline.pin (pcfgs (F := F)) (adm a2 a3) p) c
  | ⟨0, _⟩ => fun c => ResidualUsers.dat (V1 m) c
  | ⟨1, _⟩ => fun c => ResidualItems.dat (V2 m) c
  | ⟨2, _⟩ => fun c => GatherUsers.dat a2 (V4 m) c
  | ⟨3, _⟩ => fun c => GatherItems.dat a3 (V6 m a2) c
  | ⟨_ + 4, h⟩ => absurd h (Nat.not_lt.2 (Nat.le_add_left _ _))

end Cert.KernelIdeal.Run

end
-- ==== Proof.RunI.lean ====
/-
  The run of @main as the sequence of its eight items — host stretch, the two residual-concat regions, host stretch,
  the user-batch gather, host stretch, the item-batch gather, host stretch — over the thread state "every unscoped
  buffer at the boundary's contents, the generator register at some state, nothing owed".  Every weakly fair
  execution terminates, and every final memory holds each unscoped buffer at the last boundary's contents: from this
  one run come both the frame claim (the arguments are unchanged) and the results' values.
-/
import proofs.«418848_j35158602285525_2_alg».proof.Proof.RunDefsI

set_option maxRecDepth 16384

noncomputable section

namespace Cert.KernelIdeal.Run

open Cert.KernelIdeal Cert.KernelIdeal.Gen Cert.KernelIdeal.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a2 : (pcfg2 (F := F)).Adm) (a3 : (pcfg3 (F := F)).Adm)
variable (ha2 : a2.1 = tblUsers m) (ha3 : a3.1 = tblItems m)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A host stretch as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues. -/
abbrev Tₙ (c : Dev nD) : sProp 𝕄 := iprop(StableHlo.held (c : Thread nD τ) (Pipeline.ucRefs τ sig) (W8 m a2 a3 c) ∗ ∃ r, prngReg c r)

/-! ## The regions as items -/

set_option backward.isDefEq.respectTransparency.types false in
/-- Region 0 over the thread state: entered from every unscoped buffer at its entry contents, left with its arrays at
    what the pipeline leaves.  Its arrays are split out of the unscoped buffers and put back at the exit contents; the
    generator register goes into the region's invariant and comes out; nothing is owed; no semaphore of its own. -/
def reg0 : Pipeline.RegionSeg (pcfgs (F := F)) (adm a2 a3) (pdats m a2 a3) () defs₀ 𝒱₀ L lv 0 where
  win := winFacts0.to₀
  block_pos := block_pos0
  stage_whole := stage_whole0
  K := PEmpty
  osem k := k.elim
  ho := Pipeline.OwnSemFacts.none _
  hbody c := (ResidualUsers.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm a2 a3) (pdats m a2 a3) winFacts0 arr_whole0 c
      ((pdats m a2 a3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a2 a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a2 a3) (Ix := Unit) (Name := ℕ) (U := UR sig nD τ) (Lvl := ℕ)
      winFacts0 arr_whole0 c (pdats m a2 a3) ((pdats m a2 a3 0 c).share_full fun _ => rfl)
      (V1 m c) (V2 m c) ((pdats m a2 a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its arrays at
    what the pipeline leaves.  Its arrays are split out of the unscoped buffers and put back at the exit contents; the
    generator register goes into the region's invariant and comes out; nothing is owed; no semaphore of its own. -/
def reg1 : Pipeline.RegionSeg (pcfgs (F := F)) (adm a2 a3) (pdats m a2 a3) () defs₀ 𝒱₀ L lv 1 where
  win := winFacts1.to₀
  block_pos := block_pos1
  stage_whole := stage_whole1
  K := PEmpty
  osem k := k.elim
  ho := Pipeline.OwnSemFacts.none _
  hbody c := (ResidualItems.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) (adm a2 a3) (pdats m a2 a3) winFacts1 arr_whole1 c
      ((pdats m a2 a3 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a2 a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a2 a3) (Ix := Unit) (Name := ℕ) (U := UR sig nD τ) (Lvl := ℕ)
      winFacts1 arr_whole1 c (pdats m a2 a3) ((pdats m a2 a3 1 c).share_full fun _ => rfl)
      (V2 m c) (V3 m c) ((pdats m a2 a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include ha2 in

set_option backward.isDefEq.respectTransparency.types false in
/-- Region 2 over the thread state.  Beside its arrays, the index table is taken out of the unscoped buffers at entry
    (it holds the admissible contents the pipeline is pinned at), rides through the region in its invariant, whole and
    unread by the body, and is put back at exit. -/
def reg2 : Pipeline.RegionSeg (pcfgs (F := F)) (adm a2 a3) (pdats m a2 a3) () defs₀ 𝒱₀ L lv 2 where
  win := winFacts2.to₀
  block_pos := block_pos2
  stage_whole := stage_whole2
  K := PEmpty
  osem k := k.elim
  ho := Pipeline.OwnSemFacts.none _
  hbody c := (GatherUsers.body_obligation a2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m a2 c) ∗ R c)
  X c := iprop(∃ r, prngReg c r)
  Y c := iprop((∃ r, prngReg c r) ∗ Pipeline.prefHeld (Ix := Unit) (Name := ℕ) (U := UR sig nD τ) (Lvl := ℕ) pre2 c (fun _ => fullShare) a2.1)
  Z c := Pipeline.unscopedRestP (Ix := Unit) (Name := ℕ) (U := UR sig nD τ) (Lvl := ℕ) pre2 spec2 c (V4 m c)
  hentry c := by
    rw [Pipeline.ownSems0_none]
    have hsplit := Pipeline.arrays_of_unscopedBufs (p := 2) (pcfgs (F := F)) (adm a2 a3) (pdats m a2 a3) winFacts2 arr_whole2 c
      ((pdats m a2 a3 2 c).share_full fun _ => rfl) (V4 m c) fun _ => rfl
    rw [Pipeline.unscopedBufs_held] at hsplit
    have hsplitT : (StableHlo.held (c : Thread nD τ) (Pipeline.ucRefs τ sig) (W4 m c) : sProp 𝕄)
        ⊢ iprop((pdats m a2 a3 2 c).arrays ((pdats m a2 a3 2 c).arrAt · 0) ∗ Pipeline.unscopedRest spec2 c (V4 m c)) := hsplit
    rw [Pipeline.unscopedRest_split (Ix := Unit) (Name := ℕ) (U := UR sig nD τ) (Lvl := ℕ) preFacts2 c (V4 m c),
      show (fun k => V4 m c (pre2.ref k)) = a2.1 from funext fun k => (V4_table m c k).trans (congrFun ha2.symm k)] at hsplitT
    iintro ⟨⟨Hub, Hp, HO⟩, -, -⟩
    ihave H := hsplitT $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 2 c).Φ 0 = GatherUsers.inv a2 c from rfl]; unfold GatherUsers.inv Pipeline.ΦA
    iintro ⟨Hp, Ht, Hr⟩
    isplitr [Ht]
    · isplitl [Hr] <;> iassumption
    · iexact Ht
  hout c := by
    rw [Pipeline.ownSems0_none, show (pdats m a2 a3 2 c).Φ (Fin.last _) = GatherUsers.inv a2 c from rfl]; unfold GatherUsers.inv Pipeline.ΦA
    iintro ⟨⟨Hr, Hp⟩, Ht⟩
    isplitl [Hp Ht]
    · isplitl [Hp] <;> iassumption
    isplitr; · iempintro
    iexact Hr
  hexit c := by
    have hjoin := Pipeline.unscopedBufs_of_arrays (p := 2) (pcfgs (F := F)) (adm a2 a3) (Ix := Unit) (Name := ℕ) (U := UR sig nD τ) (Lvl := ℕ)
      winFacts2 arr_whole2 c (pdats m a2 a3) ((pdats m a2 a3 2 c).share_full fun _ => rfl)
      (V4 m c) (V5 m a2 c) ((pdats m a2 a3 2 c).arrAt · (cfg2 a2).N) (hF2 m a2 c) (hrest2 m a2 c)
    rw [Pipeline.unscopedBufs_held] at hjoin
    have hjoinT : (iprop((pdats m a2 a3 2 c).arrays ((pdats m a2 a3 2 c).arrAt · (cfg2 a2).N) ∗ Pipeline.unscopedRest spec2 c (V4 m c)) : sProp 𝕄)
        ⊢ StableHlo.held (c : Thread nD τ) (Pipeline.ucRefs τ sig) (W5 m a2 c) := hjoin
    rw [Pipeline.unscopedRest_split (Ix := Unit) (Name := ℕ) (U := UR sig nD τ) (Lvl := ℕ) preFacts2 c (V4 m c),
      show (fun k => V4 m c (pre2.ref k)) = a2.1 from funext fun k => (V4_table m c k).trans (congrFun ha2.symm k)] at hjoinT
    iintro ⟨Ha, HO, ⟨HY, Ht⟩, Hrest⟩
    imodintro
    isplitl [Ha Hrest Ht]
    · iapply hjoinT; isplitl [Ha]; · iexact Ha
      isplitl [Ht] <;> iassumption
    isplitl [HY]; · iexact HY
    unfold Pipeline.Dat.owesAt Pipeline.owesWithin
    icases HO with ⟨%W, -, HO⟩; iexists W; iexact HO

include ha3 in

set_option backward.isDefEq.respectTransparency.types false in
/-- Region 3 over the thread state.  Beside its arrays, the index table is taken out of the unscoped buffers at entry
    (it holds the admissible contents the pipeline is pinned at), rides through the region in its invariant, whole and
    unread by the body, and is put back at exit. -/
def reg3 : Pipeline.RegionSeg (pcfgs (F := F)) (adm a2 a3) (pdats m a2 a3) () defs₀ 𝒱₀ L lv 3 where
  win := winFacts3.to₀
  block_pos := block_pos3
  stage_whole := stage_whole3
  K := PEmpty
  osem k := k.elim
  ho := Pipeline.OwnSemFacts.none _
  hbody c := (GatherItems.body_obligation a3 (V6 m a2) c).loose
  hwaits := Pipeline.hwaits_of_owed_zero _ _ _ _ L lv 3 fun _ _ => rfl
  pre c := iprop(StableHlo.held (c : Thread nD τ) (Pipeline.ucRefs τ sig) (W6 m a2 c) ∗ R c)
  post c := iprop(StableHlo.held (c : Thread nD τ) (Pipeline.ucRefs τ sig) (W7 m a2 a3 c) ∗ R c)
  X c := iprop(∃ r, prngReg c r)
  Y c := iprop((∃ r, prngReg c r) ∗ Pipeline.prefHeld (Ix := Unit) (Name := ℕ) (U := UR sig nD τ) (Lvl := ℕ) pre3 c (fun _ => fullShare) a3.1)
  Z c := Pipeline.unscopedRestP (Ix := Unit) (Name := ℕ) (U := UR sig nD τ) (Lvl := ℕ) pre3 spec3 c (V6 m a2 c)
  hentry c := by
    rw [Pipeline.ownSems0_none]
    have hsplit := Pipeline.arrays_of_unscopedBufs (p := 3) (pcfgs (F := F)) (adm a2 a3) (pdats m a2 a3) winFacts3 arr_whole3 c
      ((pdats m a2 a3 3 c).share_full fun _ => rfl) (V6 m a2 c) fun _ => rfl
    rw [Pipeline.unscopedBufs_held] at hsplit
    have hsplitT : (StableHlo.held (c : Thread nD τ) (Pipeline.ucRefs τ sig) (W6 m a2 c) : sProp 𝕄)
        ⊢ iprop((pdats m a2 a3 3 c).arrays ((pdats m a2 a3 3 c).arrAt · 0) ∗ Pipeline.unscopedRest spec3 c (V6 m a2 c)) := hsplit
    rw [Pipeline.unscopedRest_split (Ix := Unit) (Name := ℕ) (U := UR sig nD τ) (Lvl := ℕ) preFacts3 c (V6 m a2 c),
      show (fun k => V6 m a2 c (pre3.ref k)) = a3.1 from funext fun k => (V6_table m a2 c k).trans (congrFun ha3.symm k)] at hsplitT
    iintro ⟨⟨Hub, Hp, HO⟩, -, -⟩
    ihave H := hsplitT $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 a3 3 c).Φ 0 = GatherItems.inv a3 c from rfl]; unfold GatherItems.inv Pipeline.ΦA
    iintro ⟨Hp, Ht, Hr⟩
    isplitr [Ht]
    · isplitl [Hr] <;> iassumption
    · iexact Ht
  hout c := by
    rw [Pipeline.ownSems0_none, show (pdats m a2 a3 3 c).Φ (Fin.last _) = GatherItems.inv a3 c from rfl]; unfold GatherItems.inv Pipeline.ΦA
    iintro ⟨⟨Hr, Hp⟩, Ht⟩
    isplitl [Hp Ht]
    · isplitl [Hp] <;> iassumption
    isplitr; · iempintro
    iexact Hr
  hexit c := by
    have hjoin := Pipeline.unscopedBufs_of_arrays (p := 3) (pcfgs (F := F)) (adm a2 a3) (Ix := Unit) (Name := ℕ) (U := UR sig nD τ) (Lvl := ℕ)
      winFacts3 arr_whole3 c (pdats m a2 a3) ((pdats m a2 a3 3 c).share_full fun _ => rfl)
      (V6 m a2 c) (V7 m a2 a3 c) ((pdats m a2 a3 3 c).arrAt · (cfg3 a3).N) (hF3 m a2 a3 c) (hrest3 m a2 a3 c)
    rw [Pipeline.unscopedBufs_held] at hjoin
    have hjoinT : (iprop((pdats m a2 a3 3 c).arrays ((pdats m a2 a3 3 c).arrAt · (cfg3 a3).N) ∗ Pipeline.unscopedRest spec3 c (V6 m a2 c)) : sProp 𝕄)
        ⊢ StableHlo.held (c : Thread nD τ) (Pipeline.ucRefs τ sig) (W7 m a2 a3 c) := hjoin
    rw [Pipeline.unscopedRest_split (Ix := Unit) (Name := ℕ) (U := UR sig nD τ) (Lvl := ℕ) preFacts3 c (V6 m a2 c),
      show (fun k => V6 m a2 c (pre3.ref k)) = a3.1 from funext fun k => (V6_table m a2 c k).trans (congrFun ha3.symm k)] at hjoinT
    iintro ⟨Ha, HO, ⟨HY, Ht⟩, Hrest⟩
    imodintro
    isplitl [Ha Hrest Ht]
    · iapply hjoinT; isplitl [Ha]; · iexact Ha
      isplitl [Ht] <;> iassumption
    isplitl [HY]; · iexact HY
    unfold Pipeline.Dat.owesAt Pipeline.owesWithin
    icases HO with ⟨%W, -, HO⟩; iexists W; iexact HO

/-! ## @main as its items, and the launch -/

/-- @main's eight items in order. -/
abbrev segs : List (Pipeline.Seg (pcfgs (F := F)) (adm a2 a3) (pdats m a2 a3) () defs₀ 𝒱₀ L lv) :=
  [ .host (hseg hostOps0 hostOps0_sub hostOps0_fresh (W0 m)),
    .region (reg0 m a2 a3),
    .region (reg1 m a2 a3),
    .host (hseg hostOps2 hostOps2_sub hostOps2_fresh (W3 m)),
    .region (reg2 m a2 a3 ha2),
    .host (hseg hostOps3 hostOps3_sub hostOps3_fresh (W5 m a2)),
    .region (reg3 m a2 a3 ha3),
    .host (hseg hostOps4 hostOps4_sub hostOps4_fresh (W7 m a2 a3)) ]

/-- @main IS the run of the items. -/
theorem main_run (c : Dev nD) : main (F := F) c = Pipeline.Seg.run (segs m a2 a3 ha2 ha3) := by
  rw [main_chain c, Pipeline.Seg.run_eq_chain]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include ha2 ha3 in
set_option backward.isDefEq.respectTransparency.types false in
/-- THE RUN: from any memory with zero counters, every weakly fair execution of @main terminates, nothing faulting,
    and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m a2 a3 c b) :=
  Pipeline.θ_run_regions_kit (pcfgs (F := F)) (adm a2 a3) (pdats m a2 a3) () (cellOf_inj (adm a2 a3)) emb₁ defs₀ 𝒱₀ L lv m ρ main (segs m a2 a3 ha2 ha3)
    (fun c Q => by rw [main_run m a2 a3 ha2 ha3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a2 a3)) (cellOf_inj (adm a2 a3))) (Pipeline.launchToks (Pipeline.pin (pcfgs (F := F)) (adm a2 a3)) (cellOf_inj (adm a2 a3))))
    (hu₀ := by
      iintro Hu; imodintro
      isplitl [Hu]
      · iapply (show (ownU (initOf (Pipeline.cells (Pipeline.pin (pcfgs (F := F)) (adm a2 a3)) (cellOf_inj (adm a2 a3))) (Pipeline.launchToks (Pipeline.pin (pcfgs (F := F)) (adm a2 a3)) (cellOf_inj (adm a2 a3)))) : sProp 𝕄)
            ⊢ BI.own (emb₁ (initOf (Pipeline.cells (Pipeline.pin (pcfgs (F := F)) (adm a2 a3)) (cellOf_inj (adm a2 a3))) (Pipeline.launchToks (Pipeline.pin (pcfgs (F := F)) (adm a2 a3)) (cellOf_inj (adm a2 a3))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a2 a3)
    (hch := ⟨fun _ => .rfl, fun _ => .rfl, fun _ => .rfl, fun _ => .rfl, fun _ => .rfl, fun _ => .rfl, fun _ => .rfl, fun _ => .rfl, fun c => (show (iprop(StableHlo.held (c : Thread nD τ) (Pipeline.ucRefs τ sig) (W8 m a2 a3 c) ∗ R c) : sProp 𝕄)
        ⊢ iprop(Tₙ m a2 a3 c ∗ ∃ W, owes (c : Thread nD τ) (0 : CellTallies nD τ sig Unit) W) from by
      iintro ⟨Hh, Hp, HO⟩
      isplitl [Hh Hp]
      · isplitl [Hh] <;> iassumption
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m a2 a3 c b)
    (hfin := fun c s' => by
      iintro ⟨⟨Hh, -⟩, HSI⟩
      unfold StableHlo.held
      imodintro
      iapply (pointsTo_read_all (Pipeline.ucRefs τ sig) (fun b => (((c : Thread nD τ)).1, b)) (W8 m a2 a3 c) s')
      isplitl [Hh] <;> iassumption)
    (hQ := fun s h c => h c)

end Cert.KernelIdeal.Run

end
-- ==== Proof.OkOfPreI.lean ====
/-
  The precondition decoded, and the two row-gathers' side conditions proved from it, at any float instance.
  The printed predicate is a conjunction (a chain of one-bit "and"s) whose last three conjuncts are, each, an
  all-reduction by "and" over the 4096 positions of (x ≥ 0) ∧ (x < bound), compared signed: bound 100000 for the
  `user` array, 50000 for `item_i` and for `item_j`. A conjunction that is 1 has every conjunct 1; an all-reduction by
  "and" that is 1 has a 1 at every position; a signed comparison that is 1 orders the words' signed values. So every
  `user` word lies in [0, 100000) and every `item_i` and `item_j` word in [0, 50000) (`user_range`, `itemI_range`,
  `itemJ_range`). The 8192 item row numbers are `item_i` followed by `item_j`: below position 4096 the concatenation
  reads `item_i` at that position, from 4096 on it reads `item_j` at the position less 4096 (`itemIdx_lo`, `itemIdx_hi`),
  so they too lie in [0, 50000) (`itemIdx_range`).
  Each gather's index map sends grid point i to the block (table[i], 0, 0) of one [1, 1, 128] row; a word in [0, N)
  signed, N below 2³¹, is below N unsigned, so the block (w + 1) · 1 ≤ N, (0 + 1) · 1 ≤ 1, (0 + 1) · 128 ≤ 128 lies inside the
  [N, 1, 128] array, and the elements are 32 bits wide (`okUsers`, `okItems`). The index maps are read with the table's
  contents a variable; the tables of the launch memory are put in last.
-/
import proofs.«418848_j35158602285525_2_alg».proof.Proof.TablesI
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.OkOfPre

open Cert.KernelIdeal Cert.KernelIdeal.Gen Cert.KernelIdeal.Tables
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The scalar shape has one index. -/
local instance subsingleton_scalar_idx : Subsingleton Cert.Pre_finite_inputs.S_.Idx := ⟨fun a b => funext fun d => d.elim0⟩

/-- A word that passes the two printed comparisons lies in the stated signed range. -/
private theorem word_range {w c : BitVec 32} {n : Int} (hc : c.toInt = n)
    (h0 : IntOp.cmpi .sge w 0#32 = 1#1) (h1 : IntOp.cmpi .slt w c = 1#1) : 0 ≤ w.toInt ∧ w.toInt < n := by
  have a := IntOp.cmpi_sge.1 h0
  have b := IntOp.cmpi_slt.1 h1
  have z : (0#32 : BitVec 32).toInt = 0 := by decide
  rw [hc] at b
  rw [z] at a
  exact ⟨a, b⟩

open Cert.Pre_finite_inputs in
/-- The last part of the printed predicate, decoded. -/
private theorem part2_decode (a9 a10 : IVec Cert.Pre_finite_inputs.S4096 32) (v28 : IVec Cert.Pre_finite_inputs.S_ 1) (v33 : IVec Cert.Pre_finite_inputs.S4096 1)
    (j : Cert.Pre_finite_inputs.S_.Idx) (e : fn_part2 (F := F) a9 a10 v28 v33 j = 1#1) :
    (∀ i, v33 i = 1#1) ∧ (∀ i, 0 ≤ (a9 i).toInt ∧ (a9 i).toInt < 50000) ∧ (∀ i, 0 ≤ (a10 i).toInt ∧ (a10 i).toInt < 50000) := by
  obtain ⟨h42, h48⟩ := IntOp.andi_eq_one.1 e
  obtain ⟨h35, h41⟩ := IntOp.andi_eq_one.1 h42
  obtain ⟨h28, h34⟩ := IntOp.andi_eq_one.1 h35
  refine ⟨fun i => Host.reduce_andi_all _ _ _ _ j h34 i, fun i => ?_, fun i => ?_⟩
  · obtain ⟨p, q⟩ := IntOp.andi_eq_one.1 (Host.reduce_andi_all _ _ _ _ j h41 i)
    exact word_range (c := 50000#32) (by decide) p q
  · obtain ⟨p, q⟩ := IntOp.andi_eq_one.1 (Host.reduce_andi_all _ _ _ _ j h48 i)
    exact word_range (c := 50000#32) (by decide) p q

open Cert.Pre_finite_inputs in
/-- The middle part of the printed predicate, decoded: the three index arrays' ranges. -/
private theorem part1_decode (a4 a5 : FVec F Cert.Pre_finite_inputs.S3200000 .f32) (a8 a9 a10 : IVec Cert.Pre_finite_inputs.S4096 32)
    (v13 : IVec Cert.Pre_finite_inputs.S_ 1) (v16 : IVec Cert.Pre_finite_inputs.S50000x1 1)
    (j : Cert.Pre_finite_inputs.S_.Idx) (e : fn_part1 (F := F) a4 a5 a8 a9 a10 v13 v16 j = 1#1) :
    (∀ i, 0 ≤ (a8 i).toInt ∧ (a8 i).toInt < 100000) ∧ (∀ i, 0 ≤ (a9 i).toInt ∧ (a9 i).toInt < 50000) ∧ (∀ i, 0 ≤ (a10 i).toInt ∧ (a10 i).toInt < 50000) := by
  obtain ⟨h33, h9, h10⟩ := part2_decode (F := F) _ _ _ _ j e
  refine ⟨fun i => ?_, h9, h10⟩
  obtain ⟨p, q⟩ := IntOp.andi_eq_one.1 (h33 i)
  exact word_range (c := 100000#32) (by decide) p q

/-- The precondition gives the three index arrays' ranges. -/
private theorem ranges (h : PreAt m) :
    (∀ i, 0 ≤ (userArg m i).toInt ∧ (userArg m i).toInt < 100000) ∧ (∀ i, 0 ≤ (itemIArg m i).toInt ∧ (itemIArg m i).toInt < 50000)
      ∧ (∀ i, 0 ≤ (itemJArg m i).toInt ∧ (itemJArg m i).toInt < 50000) :=
  part1_decode (F := F) _ _ _ _ _ _ _ (fun d => d.elim0) (congrFun (h 0) (fun d => d.elim0))

/-- Every `user` word lies in [0, 100000). -/
theorem user_range (h : PreAt m) (i : S4096.Idx) : 0 ≤ (userArg m i).toInt ∧ (userArg m i).toInt < 100000 := (ranges m h).1 i
/-- Every `item_i` word lies in [0, 50000). -/
theorem itemI_range (h : PreAt m) (i : S4096.Idx) : 0 ≤ (itemIArg m i).toInt ∧ (itemIArg m i).toInt < 50000 := (ranges m h).2.1 i
/-- Every `item_j` word lies in [0, 50000). -/
theorem itemJ_range (h : PreAt m) (i : S4096.Idx) : 0 ≤ (itemJArg m i).toInt ∧ (itemJArg m i).toInt < 50000 := (ranges m h).2.2 i

/-- Below position 4096 the concatenated row numbers read `item_i` at that position. -/
theorem itemIdx_lo (i : S8192.Idx) (hi : (i 0).val < 4096) : itemIdx m i = itemIArg m (ix1 ⟨(i 0).val, hi⟩) := by
  unfold itemIdx
  refine concatenate_pair_apply_left (0 : Fin S8192.rank) (itemIArg m) (itemJArg m) concatenates_S4096_S4096_S8192_d0 i rfl _ (fun b => ?_)
  obtain rfl : b = 0 := Subsingleton.elim _ _
  rfl

/-- From position 4096 on they read `item_j` at the position less 4096. -/
theorem itemIdx_hi (i : S8192.Idx) (hi : 4096 ≤ (i 0).val) : itemIdx m i = itemJArg m (ix1 ⟨(i 0).val - 4096, by have := (i 0).isLt; (first | omega | (simp [S8192] at this; omega))⟩) := by
  unfold itemIdx
  refine concatenate_pair_apply_right (0 : Fin S8192.rank) (itemIArg m) (itemJArg m) concatenates_S4096_S4096_S8192_d0 i rfl rfl _ (fun b hb => ?_) ?_
  · exact absurd (Subsingleton.elim _ _) hb
  · show (i 0).val - 4096 + 4096 = (i 0).val
    omega

/-- Every item row number lies in [0, 50000). -/
theorem itemIdx_range (h : PreAt m) (i : S8192.Idx) : 0 ≤ (itemIdx m i).toInt ∧ (itemIdx m i).toInt < 50000 := by
  by_cases hi : (i 0).val < 4096
  · rw [itemIdx_lo m i hi]; exact itemI_range m h _
  · rw [itemIdx_hi m i (Nat.le_of_not_lt hi)]; exact itemJ_range m h _

/-- A word in [0, n) signed, n below 2³¹, reads unsigned below n. -/
private theorem toNat_lt_of_range {w : BitVec 32} {n : Nat} (hn : n < 2 ^ 31) (h : 0 ≤ w.toInt ∧ w.toInt < (n : Int)) : w.toNat < n := by
  have h32 := w.isLt
  obtain ⟨h0, h1⟩ := h
  unfold BitVec.toInt at h0 h1
  split at h0 <;> omega

/-- A block of one row, [1, 1, 128], at row w of an [N, 1, 128] array lies inside it when w < N. -/
private theorem row_block_inb {w N : Nat} (hw : w < N) :
    ∀ a : Fin 3, ((![w, 0, 0] : Fin 3 → Nat) a + 1) * (⟨3, ![1, 1, 128]⟩ : Shape).size a ≤ (⟨3, ![N, 1, 128]⟩ : Shape).size a := by
  intro a
  fin_cases a
  · show (w + 1) * 1 ≤ N
    omega
  · show (0 + 1) * 1 ≤ 1
    omega
  · show (0 + 1) * 128 ≤ 128
    omega

/-- The word the user-batch gather's index map reads at grid point i, at any table contents: the table at i. -/
private theorem word2 (pf : pre2.Contents (Elt F)) (i : grid2.Coords) :
    (pf.at 0 (Rect.unit (s := S4096) ![(Scalar.indexCast (BitVec.ofNat 32 (i 0).val)).toNat] S1.size (k2_off1_inb i)) numel1_S1 : BitVec 32)
      = pf 0 (ix1 ⟨(i 0).val, (i 0).isLt⟩) := by
  show pf 0 _ = pf 0 _
  congr 1
  refine funext fun (a : Fin 1) => Fin.ext ?_
  obtain rfl : a = 0 := Subsingleton.elim _ _
  show (BitVec.ofNat 32 (i 0).val).toNat + 1 * 0 = (i 0).val
  have hlt : (i 0).val < 4096 := (i 0).isLt
  rw [BitVec.toNat_ofNat, Nat.mod_eq_of_lt (by omega)]
  omega

/-- The user-batch gather's index map at any table contents: row = the table's word at the grid coordinate. -/
private theorem cc2_eq (pf : pre2.Contents (Elt F)) (i : grid2.Coords) :
    cc2_transform_0 k2_off1_inb numel1_S1 pf i = ![(pf 0 (ix1 ⟨(i 0).val, (i 0).isLt⟩) : BitVec 32).toNat, 0, 0] :=
  congrArg (fun w : BitVec 32 => (![w.toNat, 0, 0] : Fin 3 → Nat)) (word2 pf i)

/-- The same for the item-batch gather and its 8192-word table. -/
private theorem word3 (pf : pre3.Contents (Elt F)) (i : grid3.Coords) :
    (pf.at 0 (Rect.unit (s := S8192) ![(Scalar.indexCast (BitVec.ofNat 32 (i 0).val)).toNat] S1.size (k3_off1_inb i)) numel1_S1 : BitVec 32)
      = pf 0 (ix1 ⟨(i 0).val, (i 0).isLt⟩) := by
  show pf 0 _ = pf 0 _
  congr 1
  refine funext fun (a : Fin 1) => Fin.ext ?_
  obtain rfl : a = 0 := Subsingleton.elim _ _
  show (BitVec.ofNat 32 (i 0).val).toNat + 1 * 0 = (i 0).val
  have hlt : (i 0).val < 8192 := (i 0).isLt
  rw [BitVec.toNat_ofNat, Nat.mod_eq_of_lt (by omega)]
  omega

private theorem cc3_eq (pf : pre3.Contents (Elt F)) (i : grid3.Coords) :
    cc3_transform_0 k3_off1_inb numel1_S1 pf i = ![(pf 0 (ix1 ⟨(i 0).val, (i 0).isLt⟩) : BitVec 32).toNat, 0, 0] :=
  congrArg (fun w : BitVec 32 => (![w.toNat, 0, 0] : Fin 3 → Nat)) (word3 pf i)

/-- Every user row number names a row of the [100000, 1, 128] table. -/
theorem okUsers (h : PreAt m) : OkUsers m := by
  intro i
  refine ⟨?_, Or.inl rfl⟩
  rw [cc2_eq]
  exact row_block_inb (toNat_lt_of_range (by decide) (user_range m h _))

/-- Every item row number names a row of the [50000, 1, 128] table. -/
theorem okItems (h : PreAt m) : OkItems m := by
  intro i
  refine ⟨?_, Or.inl rfl⟩
  rw [cc3_eq]
  exact row_block_inb (toNat_lt_of_range (by decide) (itemIdx_range m h _))

end Cert.KernelIdeal.OkOfPre

end
-- ==== Proof.FrameI.lean ====
/-
  The frame claim from the run.  A reference that no host stretch writes and that is no array of any region holds its
  launch contents at the last boundary; the eleven arguments are such references.  The two gathers' admissible table
  contents come from the precondition (every row number names a row of its table).
-/
import proofs.«418848_j35158602285525_2_alg».proof.Proof.RunI
import proofs.«418848_j35158602285525_2_alg».proof.Proof.OkOfPreI

set_option maxRecDepth 16384

noncomputable section

namespace Cert.KernelIdeal.Run

open Cert.KernelIdeal Cert.KernelIdeal.Gen Cert.KernelIdeal.Tables
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)
variable (a2 : (pcfg2 (F := F)).Adm) (a3 : (pcfg3 (F := F)).Adm)

/-- An input window's array is left by its region as the region found it. -/
theorem W2_in0 (c : Dev nD) : W2 m c (Proc.devRef .tc main_arg0) = W1 m c (Proc.devRef .tc main_arg0) :=
  (W2_arr m c 0).trans (((ResidualUsers.dat (V1 m) c).arrAt_in 0 rfl _).trans (ResidualUsers.A_eq (V1 m) c 0))
theorem W2_in1 (c : Dev nD) : W2 m c (Proc.devRef .tc main_arg2) = W1 m c (Proc.devRef .tc main_arg2) :=
  (W2_arr m c 1).trans (((ResidualUsers.dat (V1 m) c).arrAt_in 1 rfl _).trans (ResidualUsers.A_eq (V1 m) c 1))
theorem W3_in0 (c : Dev nD) : W3 m c (Proc.devRef .tc main_arg1) = W2 m c (Proc.devRef .tc main_arg1) :=
  (W3_arr m c 0).trans (((ResidualItems.dat (V2 m) c).arrAt_in 0 rfl _).trans (ResidualItems.A_eq (V2 m) c 0))
theorem W3_in1 (c : Dev nD) : W3 m c (Proc.devRef .tc main_arg3) = W2 m c (Proc.devRef .tc main_arg3) :=
  (W3_arr m c 1).trans (((ResidualItems.dat (V2 m) c).arrAt_in 1 rfl _).trans (ResidualItems.A_eq (V2 m) c 1))

/-- A reference that no host stretch writes, that the two residual-concat regions leave as they found it, and that is
    no array of either gather holds its launch contents at the end. -/
theorem W8_launch (c : Dev nD) (r : Ref sig .tc) (h0 : r ∉ hostOps0_W) (h2 : r ∉ hostOps2_W) (h3 : r ∉ hostOps3_W) (h4 : r ∉ hostOps4_W)
    (e2 : W2 m c (Proc.devRef .tc r) = W1 m c (Proc.devRef .tc r)) (e3 : W3 m c (Proc.devRef .tc r) = W2 m c (Proc.devRef .tc r))
    (hn2 : ∀ w, Pipeline.arrRef spec2 w ≠ r) (hn3 : ∀ w, Pipeline.arrRef spec3 w ≠ r) :
    W8 m a2 a3 c (Proc.devRef .tc r) = m ((c : Thread nD τ).loc r) :=
  calc W8 m a2 a3 c (Proc.devRef .tc r)
    _ = W7 m a2 a3 c (Proc.devRef .tc r) := StableHlo.after_of_writes_sub hostOps4 _ hostOps4_writes h4
    _ = W6 m a2 c (Proc.devRef .tc r) := W7_of_ne m a2 a3 c r hn3
    _ = W5 m a2 c (Proc.devRef .tc r) := StableHlo.after_of_writes_sub hostOps3 _ hostOps3_writes h3
    _ = W4 m c (Proc.devRef .tc r) := W5_of_ne m a2 c r hn2
    _ = W3 m c (Proc.devRef .tc r) := StableHlo.after_of_writes_sub hostOps2 _ hostOps2_writes h2
    _ = W2 m c (Proc.devRef .tc r) := e3
    _ = W1 m c (Proc.devRef .tc r) := e2
    _ = W0 m c (Proc.devRef .tc r) := StableHlo.after_of_writes_sub hostOps0 _ hostOps0_writes h0
    _ = m ((c : Thread nD τ).loc r) := rfl

end Cert.KernelIdeal.Run

namespace Cert.KernelIdeal.Final

open Cert.KernelIdeal Cert.KernelIdeal.Gen Cert.KernelIdeal.Tables Cert.KernelIdeal.Run
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (h : PreAt m)

/-- The tables' admissible contents under the precondition. -/
abbrev admUsers : (pcfg2 (F := F)).Adm := ⟨tblUsers m, OkOfPre.okUsers m h⟩
abbrev admItems : (pcfg3 (F := F)).Adm := ⟨tblItems m, OkOfPre.okItems m h⟩

/-- The last boundary's contents under the precondition. -/
abbrev Wend : Dev nD → Valuation τ sig (Elt F) := W8 m (admUsers m h) (admItems m h)

/-- The run under the precondition. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wend m h c b) :=
  run_main m ρ (admUsers m h) (admItems m h) rfl rfl

/-- An argument at the last boundary is the argument as launched. -/
theorem Wend_arg (c : Dev nD) (r : Ref sig .tc) (h0 : r ∉ hostOps0_W) (h2 : r ∉ hostOps2_W) (h3 : r ∉ hostOps3_W) (h4 : r ∉ hostOps4_W)
    (e2 : W2 m c (Proc.devRef .tc r) = W1 m c (Proc.devRef .tc r)) (e3 : W3 m c (Proc.devRef .tc r) = W2 m c (Proc.devRef .tc r))
    (hn2 : ∀ w, Pipeline.arrRef spec2 w ≠ r) (hn3 : ∀ w, Pipeline.arrRef spec3 w ≠ r) :
    Wend m h c (Proc.devRef .tc r) = m ((c : Thread nD τ).loc r) :=
  W8_launch m (admUsers m h) (admItems m h) c r h0 h2 h3 h4 e2 e3 hn2 hn3

include h in
/-- THE FRAME: under the precondition every weakly fair execution terminates, nothing faulting, and the eleven
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c => ⟨
      (hr c _ (mem_uc main_arg0 (by decide))).trans (Wend_arg m h c main_arg0 (by decide) (by decide) (by decide) (by decide) (W2_in0 m c) (W3_of_ne m c main_arg0 (by decide)) (by decide) (by decide)),
      (hr c _ (mem_uc main_arg1 (by decide))).trans (Wend_arg m h c main_arg1 (by decide) (by decide) (by decide) (by decide) (W2_of_ne m c main_arg1 (by decide)) (W3_in0 m c) (by decide) (by decide)),
      (hr c _ (mem_uc main_arg2 (by decide))).trans (Wend_arg m h c main_arg2 (by decide) (by decide) (by decide) (by decide) (W2_in1 m c) (W3_of_ne m c main_arg2 (by decide)) (by decide) (by decide)),
      (hr c _ (mem_uc main_arg3 (by decide))).trans (Wend_arg m h c main_arg3 (by decide) (by decide) (by decide) (by decide) (W2_of_ne m c main_arg3 (by decide)) (W3_in1 m c) (by decide) (by decide)),
      (hr c _ (mem_uc main_arg4 (by decide))).trans (Wend_arg m h c main_arg4 (by decide) (by decide) (by decide) (by decide) (W2_of_ne m c main_arg4 (by decide)) (W3_of_ne m c main_arg4 (by decide)) (by decide) (by decide)),
      (hr c _ (mem_uc main_arg5 (by decide))).trans (Wend_arg m h c main_arg5 (by decide) (by decide) (by decide) (by decide) (W2_of_ne m c main_arg5 (by decide)) (W3_of_ne m c main_arg5 (by decide)) (by decide) (by decide)),
      (hr c _ (mem_uc main_arg6 (by decide))).trans (Wend_arg m h c main_arg6 (by decide) (by decide) (by decide) (by decide) (W2_of_ne m c main_arg6 (by decide)) (W3_of_ne m c main_arg6 (by decide)) (by decide) (by decide)),
      (hr c _ (mem_uc main_arg7 (by decide))).trans (Wend_arg m h c main_arg7 (by decide) (by decide) (by decide) (by decide) (W2_of_ne m c main_arg7 (by decide)) (W3_of_ne m c main_arg7 (by decide)) (by decide) (by decide)),
      (hr c _ (mem_uc main_arg8 (by decide))).trans (Wend_arg m h c main_arg8 (by decide) (by decide) (by decide) (by decide) (W2_of_ne m c main_arg8 (by decide)) (W3_of_ne m c main_arg8 (by decide)) (by decide) (by decide)),
      (hr c _ (mem_uc main_arg9 (by decide))).trans (Wend_arg m h c main_arg9 (by decide) (by decide) (by decide) (by decide) (W2_of_ne m c main_arg9 (by decide)) (W3_of_ne m c main_arg9 (by decide)) (by decide) (by decide)),
      (hr c _ (mem_uc main_arg10 (by decide))).trans (Wend_arg m h c main_arg10 (by decide) (by decide) (by decide) (by decide) (W2_of_ne m c main_arg10 (by decide)) (W3_of_ne m c main_arg10 (by decide)) (by decide) (by decide))⟩)
    (run m ρ h)

end Cert.KernelIdeal.Final

end
-- ==== Proof.SegSumsI.lean ====
/-
  The two segment sums.  Before its first kernel region the program computes, with host operations, for every user
  the sum over that user's edges of (edge weight × the item's row) and for every item the sum over its edges of
  (edge weight × the user's row): the row numbers are wrapped into range (a negative one has the table's height
  added), the rows are gathered, multiplied by the weights broadcast along the row, and added into an array of
  zeros at the segment's row.  The reference computes its two sums by the very same operations on the very same
  arguments, so each sum is, as a function of the argument arrays, the reference's own stage: the two terms differ
  only in which program's shape records they name, and those records have equal fields.  The gather and the
  scatter-add are never opened.  Also: the first host stretch writes none of the arguments the next region reads.
-/
import proofs.«418848_j35158602285525_2_alg».proof.Proof.Gen.ReferenceIdeal.Read
import proofs.«418848_j35158602285525_2_alg».proof.Proof.RunDefsI

set_option maxRecDepth 16384

noncomputable section

namespace Cert.KernelIdeal.SegSums

open Cert.KernelIdeal Cert.KernelIdeal.Gen Cert.KernelIdeal.Run
open Idealize.ShloMosaic Idealize.ShloMosaic.TcCoe Idealize.ShloMosaic.StableHlo

variable {F : FTy → Type} [FloatOps F]

variable (m : (ℓ : Loc nD τ sig) → Buf (Elt F) ℓ)

/-- The first host stretch leaves the two tables and the two scale columns as launched: it writes only its own
    intermediate and result buffers. -/
theorem V1_arg (c : Dev nD) :
    Run.V1 m c main_arg0 = m ((c : Thread nD τ).loc main_arg0) ∧ Run.V1 m c main_arg1 = m ((c : Thread nD τ).loc main_arg1)
      ∧ Run.V1 m c main_arg2 = m ((c : Thread nD τ).loc main_arg2) ∧ Run.V1 m c main_arg3 = m ((c : Thread nD τ).loc main_arg3) :=
  ⟨StableHlo.after_of_writes_sub hostOps0 _ hostOps0_writes (by decide),
   StableHlo.after_of_writes_sub hostOps0 _ hostOps0_writes (by decide),
   StableHlo.after_of_writes_sub hostOps0 _ hostOps0_writes (by decide),
   StableHlo.after_of_writes_sub hostOps0 _ hostOps0_writes (by decide)⟩

set_option maxHeartbeats 4000000 in
/-- The per-user sum of weighted item rows: after the first host stretch `main_v12` holds the scatter-add, at the
    users' row numbers, of (weights broadcast) × (item rows gathered at the wrapped item row numbers) into zeros —
    the reference's stage of the same name, at the same four arguments. -/
theorem aggUsers_eq (c : Dev nD) :
    (Run.V1 m c main_v12 : (⟨S100000x64, .f32⟩ : BufTy).Contents (Elt F))
      = Cert.ReferenceIdeal.Read.val_main_v12 (F := F) (m ((c : Thread nD τ).loc main_arg1)) (m ((c : Thread nD τ).loc main_arg4))
          (m ((c : Thread nD τ).loc main_arg6)) (m ((c : Thread nD τ).loc main_arg7)) := by
  show StableHlo.after hostOps0 (fun b => m (c, b)) (Proc.devRef .tc main_v12) = _
  -- main_v12 = scatterAdd zeros (column of arg6) ((arg4 broadcast along the row) × gather arg1 (column of the wrapped arg7))
  after_results_simp
  show _ = Cert.ReferenceIdeal.Read.val_main_v12 (F := F) (m (c, Proc.devRef .tc main_arg1)) (m (c, Proc.devRef .tc main_arg4))
      (m (c, Proc.devRef .tc main_arg6)) (m (c, Proc.devRef .tc main_arg7))
  -- the equation holds for any four arrays in place of the arguments
  generalize m (c, Proc.devRef .tc main_arg1) = x1
  generalize m (c, Proc.devRef .tc main_arg4) = x4
  generalize m (c, Proc.devRef .tc main_arg6) = x6
  generalize m (c, Proc.devRef .tc main_arg7) = x7
  unfold Cert.ReferenceIdeal.Read.val_main_v12 Cert.ReferenceIdeal.Read.val_main_v11 Cert.ReferenceIdeal.Read.val_main_v10
    Cert.ReferenceIdeal.Read.val_main_cst Cert.ReferenceIdeal.Read.val_main_v9 Cert.ReferenceIdeal.Read.val_main_v8
    Cert.ReferenceIdeal.Read.val_main_v0 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_c_0 Cert.ReferenceIdeal.Read.val_main_v2 Cert.ReferenceIdeal.Read.val_main_v1
    Cert.ReferenceIdeal.Read.val_main_c
  -- both sides are the same composition of the same operations; the two programs' shapes and dimension records have equal fields
  rfl

set_option maxHeartbeats 4000000 in
/-- The per-item sum of weighted user rows: after the first host stretch `main_v25` holds the scatter-add, at the
    items' row numbers, of (weights broadcast) × (user rows gathered at the wrapped user row numbers) into zeros —
    the reference's stage of the same name, at the same four arguments. -/
theorem aggItems_eq (c : Dev nD) :
    (Run.V1 m c main_v25 : (⟨S50000x64, .f32⟩ : BufTy).Contents (Elt F))
      = Cert.ReferenceIdeal.Read.val_main_v25 (F := F) (m ((c : Thread nD τ).loc main_arg0)) (m ((c : Thread nD τ).loc main_arg5))
          (m ((c : Thread nD τ).loc main_arg6)) (m ((c : Thread nD τ).loc main_arg7)) := by
  show StableHlo.after hostOps0 (fun b => m (c, b)) (Proc.devRef .tc main_v25) = _
  after_results_simp
  show _ = Cert.ReferenceIdeal.Read.val_main_v25 (F := F) (m (c, Proc.devRef .tc main_arg0)) (m (c, Proc.devRef .tc main_arg5))
      (m (c, Proc.devRef .tc main_arg6)) (m (c, Proc.devRef .tc main_arg7))
  generalize m (c, Proc.devRef .tc main_arg0) = x0
  generalize m (c, Proc.devRef .tc main_arg5) = x5
  generalize m (c, Proc.devRef .tc main_arg6) = x6
  generalize m (c, Proc.devRef .tc main_arg7) = x7
  unfold Cert.ReferenceIdeal.Read.val_main_v25 Cert.ReferenceIdeal.Read.val_main_v24 Cert.ReferenceIdeal.Read.val_main_v23
    Cert.ReferenceIdeal.Read.val_main_cst_3 Cert.ReferenceIdeal.Read.val_main_v22 Cert.ReferenceIdeal.Read.val_main_v21
    Cert.ReferenceIdeal.Read.val_main_v13 Cert.ReferenceIdeal.Read.val_main_v20 Cert.ReferenceIdeal.Read.val_main_v19
    Cert.ReferenceIdeal.Read.val_main_v18 Cert.ReferenceIdeal.Read.val_main_v17 Cert.ReferenceIdeal.Read.val_main_v16
    Cert.ReferenceIdeal.Read.val_main_c_2 Cert.ReferenceIdeal.Read.val_main_v15 Cert.ReferenceIdeal.Read.val_main_v14
    Cert.ReferenceIdeal.Read.val_main_c_1
  rfl

end Cert.KernelIdeal.SegSums

end
-- ==== Proof.ConcatValueI.lean ====
/-
  What the two residual-concat regions leave in their output arrays, each as ONE whole-array function of the arrays
  the region finds.  Row r of the [N, 128] result is the embedding row r (64 wide) followed by
  messages[r, :] + embedding[r, :] · degree[r, 0].  A region runs N / 5000 grid points; point t is handed rows
  5000 t … 5000 t + 4999 of the embedding table, of the degree column and of the aggregated messages, and writes the
  same rows of the result.  So: the body's output block as a concatenation of its input blocks; one entry of that
  block against the whole-array function (left half, right half); the index maps over the grid; each input block as
  rows of its array; what a point writes back as a block of the whole-array function; the blocks tile the array; the
  array.  The whole-array function is written with the reference's own multiply stage, so that the result is the
  reference's concatenate stage with the aggregated messages named.  First the user table (N = 100000, 20 points),
  then the item table (N = 50000, 10 points), which is the same argument with the names and sizes changed.
-/
import proofs.«418848_j35158602285525_2_alg».proof.Proof.RunDefsI
import proofs.«418848_j35158602285525_2_alg».proof.Proof.Gen.ReferenceIdeal.Read
import Idealize.ShloMosaic.Lib.Pipeline.Value
import Idealize.ShloMosaic.Lib.ValueIdx

set_option maxRecDepth 16384

noncomputable section

namespace Cert.KernelIdeal.ConcatValue

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))
variable (m : (ℓ : Loc nD τ sig) → Buf (Elt F) ℓ)

theorem hz : (![0, 0] : Fin 2 → Nat) = fun _ => 0 := funext fun a => by fin_cases a <;> rfl

/-! ## The user table (kernel region 0): 20 points of 5000 rows -/

/-- The output block after the body, with the whole-block loads and the identity shape casts read through: the
    embedding block on the left, messages + embedding · (degree column broadcast along the row) on the right. -/
theorem outBlk_users (e : Vec F S5000x64 .f32) (d : Vec F S5000x1 .f32) (g : Vec F S5000x64 .f32) :
    ResidualUsers.outBlk e d g
      = concatenate S5000x128 1 [⟨S5000x64, e⟩, ⟨S5000x64, addf g (mulf e (broadcastTo S5000x64 d Facts₀.broadcasts_S5000x1_S5000x64))⟩]
          Facts₀.concatenates_S5000x64_S5000x64_S5000x128_d1 := by
  unfold ResidualUsers.outBlk
  rw [View.canon_unit_zero hz]
  simp only [View.ld_unit_zero (S := S5000x64) hz, View.ld_unit_zero (S := S5000x1) hz]
  unfold k0_pay1
  dsimp only
  rw [shapeCast_self g, shapeCast_self d]

/-- The whole-array function: embedding rows on the left, messages + embedding · degree on the right, written with
    the reference's own multiply stage. -/
abbrev usersFn (E : (⟨Cert.ReferenceIdeal.S100000x64, .f32⟩ : BufTy).Contents (Elt F))
    (D : (⟨Cert.ReferenceIdeal.S100000x1, .f32⟩ : BufTy).Contents (Elt F))
    (G : (⟨Cert.ReferenceIdeal.S100000x64, .f32⟩ : BufTy).Contents (Elt F)) :
    (⟨Cert.ReferenceIdeal.S100000x128, .f32⟩ : BufTy).Contents (Elt F) :=
  concatenate Cert.ReferenceIdeal.S100000x128 1 [⟨Cert.ReferenceIdeal.S100000x64, E⟩,
    ⟨Cert.ReferenceIdeal.S100000x64, addf G (Cert.ReferenceIdeal.Read.val_main_v27 (F := F) E D)⟩]
    Cert.ReferenceIdeal.Facts₀.concatenates_S100000x64_S100000x64_S100000x128_d1

/-- One entry of a point's output block against the whole-array function: block row `y` of point `q` is array row
    `q · 5000 + y`; on the left 64 columns both sides read the embedding there, on the right 64 both read
    messages + embedding · degree there, the degree column read at column 0. -/
theorem entry_users
    (E : (⟨Cert.ReferenceIdeal.S100000x64, .f32⟩ : BufTy).Contents (Elt F))
    (D : (⟨Cert.ReferenceIdeal.S100000x1, .f32⟩ : BufTy).Contents (Elt F))
    (G : (⟨Cert.ReferenceIdeal.S100000x64, .f32⟩ : BufTy).Contents (Elt F))
    (e : Vec F S5000x64 .f32) (d : Vec F S5000x1 .f32) (g : Vec F S5000x64 .f32) (q : Nat)
    (he : ∀ (y : S5000x64.Idx) (k : Cert.ReferenceIdeal.S100000x64.Idx), (k 0).val = q * 5000 + (y 0).val → (k 1).val = (y 1).val → e y = E k)
    (hd : ∀ (y : S5000x1.Idx) (k : Cert.ReferenceIdeal.S100000x1.Idx), (k 0).val = q * 5000 + (y 0).val → (k 1).val = (y 1).val → d y = D k)
    (hg : ∀ (y : S5000x64.Idx) (k : Cert.ReferenceIdeal.S100000x64.Idx), (k 0).val = q * 5000 + (y 0).val → (k 1).val = (y 1).val → g y = G k)
    (j : S5000x128.Idx) (i : Cert.ReferenceIdeal.S100000x128.Idx) (hi0 : (i 0).val = q * 5000 + (j 0).val) (hi1 : (i 1).val = (j 1).val) :
    concatenate S5000x128 1 [⟨S5000x64, e⟩, ⟨S5000x64, addf g (mulf e (broadcastTo S5000x64 d Facts₀.broadcasts_S5000x1_S5000x64))⟩]
        Facts₀.concatenates_S5000x64_S5000x64_S5000x128_d1 j
      = usersFn E D G i := by
  have hj0 : (j 0).val < 5000 := (j 0).isLt
  have hj1 : (j 1).val < 128 := (j 1).isLt
  have hI0 : (i 0).val < 100000 := (i 0).isLt
  have hI1 : (i 1).val < 128 := (i 1).isLt
  by_cases hlt : (j 1).val < 64
  · have hlt' : (i 1).val < 64 := by omega
    refine (concatenate_pair_apply_left (t := S5000x128) (s₁ := S5000x64) (s₂ := S5000x64) (1 : Fin 2) e _ _ j rfl
      (ValueIdx.ix2 (n0 := 5000) (n1 := 64) ⟨(j 0).val, hj0⟩ ⟨(j 1).val, hlt⟩) ?_).trans ?_
    · intro b; match b with | ⟨0, _⟩ => rfl | ⟨1, _⟩ => rfl
    refine Eq.trans ?_ (concatenate_pair_apply_left (t := Cert.ReferenceIdeal.S100000x128) (s₁ := Cert.ReferenceIdeal.S100000x64)
      (s₂ := Cert.ReferenceIdeal.S100000x64) (1 : Fin 2) E _ _ i rfl
      (ValueIdx.ix2 (n0 := 100000) (n1 := 64) ⟨(i 0).val, hI0⟩ ⟨(i 1).val, hlt'⟩) ?_).symm
    · exact he _ _ hi0 hi1
    · intro b; match b with | ⟨0, _⟩ => rfl | ⟨1, _⟩ => rfl
  · have hge : 64 ≤ (j 1).val := Nat.not_lt.1 hlt
    have hj1' : (j 1).val - 64 < 64 := by omega
    have hi1' : (i 1).val - 64 < 64 := by omega
    refine (concatenate_pair_apply_right (t := S5000x128) (s₁ := S5000x64) (s₂ := S5000x64) (1 : Fin 2) e _ _ j rfl rfl
      (ValueIdx.ix2 (n0 := 5000) (n1 := 64) ⟨(j 0).val, hj0⟩ ⟨(j 1).val - 64, hj1'⟩) ?_ ?_).trans ?_
    · intro b; match b with
      | ⟨0, _⟩ => intro _; rfl
      | ⟨1, _⟩ => intro hne; exact absurd rfl hne
    · show (j 1).val - 64 + 64 = (j 1).val; omega
    refine Eq.trans ?_ (concatenate_pair_apply_right (t := Cert.ReferenceIdeal.S100000x128) (s₁ := Cert.ReferenceIdeal.S100000x64)
      (s₂ := Cert.ReferenceIdeal.S100000x64) (1 : Fin 2) E _ _ i rfl rfl
      (ValueIdx.ix2 (n0 := 100000) (n1 := 64) ⟨(i 0).val, hI0⟩ ⟨(i 1).val - 64, hi1'⟩) ?_ ?_).symm
    · -- the right half at block entry (y0, y1) and array entry (q · 5000 + y0, y1)
      have e1 := hg (ValueIdx.ix2 (n0 := 5000) (n1 := 64) ⟨(j 0).val, hj0⟩ ⟨(j 1).val - 64, hj1'⟩)
        (ValueIdx.ix2 (n0 := 100000) (n1 := 64) ⟨(i 0).val, hI0⟩ ⟨(i 1).val - 64, hi1'⟩) hi0
        (by show (i 1).val - 64 = (j 1).val - 64; omega)
      have e2 := he (ValueIdx.ix2 (n0 := 5000) (n1 := 64) ⟨(j 0).val, hj0⟩ ⟨(j 1).val - 64, hj1'⟩)
        (ValueIdx.ix2 (n0 := 100000) (n1 := 64) ⟨(i 0).val, hI0⟩ ⟨(i 1).val - 64, hi1'⟩) hi0
        (by show (i 1).val - 64 = (j 1).val - 64; omega)
      have e3 : broadcastTo S5000x64 d Facts₀.broadcasts_S5000x1_S5000x64
            (ValueIdx.ix2 (n0 := 5000) (n1 := 64) ⟨(j 0).val, hj0⟩ ⟨(j 1).val - 64, hj1'⟩)
          = d (ValueIdx.ix2 (n0 := 5000) (n1 := 1) ⟨(j 0).val, hj0⟩ ⟨0, Nat.one_pos⟩) :=
        broadcastTo_apply d _ _ _ (fun a => match a with
          | ⟨0, _⟩ => by show (j 0).val = if (5000 : Nat) = 1 then 0 else (j 0).val; rw [if_neg (by decide)]
          | ⟨1, _⟩ => by show 0 = if (1 : Nat) = 1 then 0 else (j 1).val - 64; rw [if_pos rfl])
      have e4 := Cert.ReferenceIdeal.Read.val_main_v26_apply (F := F) D
        (ValueIdx.ix2 (n0 := 100000) (n1 := 64) ⟨(i 0).val, hI0⟩ ⟨(i 1).val - 64, hi1'⟩)
      have e5 := hd (ValueIdx.ix2 (n0 := 5000) (n1 := 1) ⟨(j 0).val, hj0⟩ ⟨0, Nat.one_pos⟩)
        (Cert.ReferenceIdeal.Read.idx_main_v26 (ValueIdx.ix2 (n0 := 100000) (n1 := 64) ⟨(i 0).val, hI0⟩ ⟨(i 1).val - 64, hi1'⟩)) hi0 rfl
      show FloatOps.addf (g _) (FloatOps.mulf (e _) (broadcastTo S5000x64 d Facts₀.broadcasts_S5000x1_S5000x64 _))
        = FloatOps.addf (G _) (FloatOps.mulf (E _) (Cert.ReferenceIdeal.Read.val_main_v26 (F := F) D _))
      rw [e1, e2, e3, e4, e5]
    · intro b; match b with
      | ⟨0, _⟩ => intro _; rfl
      | ⟨1, _⟩ => intro hne; exact absurd rfl hne
    · show (i 1).val - 64 + 64 = (i 1).val; omega

/-- The printed index maps over the 20 points: every window's block index is (the point, 0). -/
theorem idx_users : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `y` of point `t`'s embedding block is row `t · 5000 + y` of the embedding table as the region finds it, -/
theorem blk_users_e (c : Dev nD) (t : Fin cfg0.N) (y : S5000x64.Idx) (k : Cert.ReferenceIdeal.S100000x64.Idx)
    (h0 : (k 0).val = t.val * 5000 + (y 0).val) (h1 : (k 1).val = (y 1).val) :
    (ResidualUsers.blk V c 0 t : Vec F S5000x64 .f32) y = (V c main_arg0 : Cert.ReferenceIdeal.S100000x64.Idx → Elt F .f32) k := by
  obtain ⟨e0, e1, -⟩ := idx_users t
  unfold ResidualUsers.blk
  rw [View.read_apply]
  show V c main_arg0 _ = V c main_arg0 _
  congr 1
  funext a; apply Fin.ext
  match a with
  | ⟨0, _⟩ => show win0_0.index t (0 : Fin 2) * 5000 + 1 * (y 0).val = (k 0).val; rw [e0, h0]; omega
  | ⟨1, _⟩ => show win0_0.index t (1 : Fin 2) * 64 + 1 * (y 1).val = (k 1).val; rw [e1, h1]; omega

/-- of its degree block, of the degree column, -/
theorem blk_users_d (c : Dev nD) (t : Fin cfg0.N) (y : S5000x1.Idx) (k : Cert.ReferenceIdeal.S100000x1.Idx)
    (h0 : (k 0).val = t.val * 5000 + (y 0).val) (h1 : (k 1).val = (y 1).val) :
    (ResidualUsers.blk V c 1 t : Vec F S5000x1 .f32) y = (V c main_arg2 : Cert.ReferenceIdeal.S100000x1.Idx → Elt F .f32) k := by
  obtain ⟨-, -, e0, e1, -⟩ := idx_users t
  unfold ResidualUsers.blk
  rw [View.read_apply]
  show V c main_arg2 _ = V c main_arg2 _
  congr 1
  funext a; apply Fin.ext
  match a with
  | ⟨0, _⟩ => show win0_1.index t (0 : Fin 2) * 5000 + 1 * (y 0).val = (k 0).val; rw [e0, h0]; omega
  | ⟨1, _⟩ => show win0_1.index t (1 : Fin 2) * 1 + 1 * (y 1).val = (k 1).val; rw [e1, h1]; omega

/-- and of its message block, of the aggregated messages. -/
theorem blk_users_g (c : Dev nD) (t : Fin cfg0.N) (y : S5000x64.Idx) (k : Cert.ReferenceIdeal.S100000x64.Idx)
    (h0 : (k 0).val = t.val * 5000 + (y 0).val) (h1 : (k 1).val = (y 1).val) :
    (ResidualUsers.blk V c 2 t : Vec F S5000x64 .f32) y = (V c main_v12 : Cert.ReferenceIdeal.S100000x64.Idx → Elt F .f32) k := by
  obtain ⟨-, -, -, -, e0, e1, -⟩ := idx_users t
  unfold ResidualUsers.blk
  rw [View.read_apply]
  show V c main_v12 _ = V c main_v12 _
  congr 1
  funext a; apply Fin.ext
  match a with
  | ⟨0, _⟩ => show win0_2.index t (0 : Fin 2) * 5000 + 1 * (y 0).val = (k 0).val; rw [e0, h0]; omega
  | ⟨1, _⟩ => show win0_2.index t (1 : Fin 2) * 64 + 1 * (y 1).val = (k 1).val; rw [e1, h1]; omega

/-- What point `t` writes back is block `t` of the whole-array function of the three arrays the region finds. -/
theorem flushed_users (c : Dev nD) (t : Fin cfg0.N) :
    (ResidualUsers.dat V c).flushed 3 t
      = ((cfg0.win 3).blk t).view.read (Elt F) (usersFn (V c main_arg0) (V c main_arg2) (V c main_v12)) := by
  obtain ⟨-, -, -, -, -, -, e0, e1⟩ := idx_users t
  show (cfg0.win 3).cut (grid0.coords t) ((ResidualUsers.dat V c).after 3 t) = _
  rw [ResidualUsers.after_3, outBlk_users]
  funext j
  rw [View.read_apply]
  refine entry_users (V c main_arg0) (V c main_arg2) (V c main_v12) _ _ _ t.val
    (blk_users_e V c t) (blk_users_d V c t) (blk_users_g V c t) ((cfg0.win 3).xinj (grid0.coords t) j) _ ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- An index of the output array is in point `t`'s block iff each coordinate is in the block's range on its axis. -/
theorem mem_blk_users (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v26).slice (win0_3.rect t)).set ↔ _
  rw [View.set_slice_whole, Rect.mem_set_unit]
  exact Iff.rfl

/-- Row `r` of the output array is in the block of point `r / 5000`: the 20 blocks tile the array. -/
theorem cover_users (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 5000, Nat.lt_of_lt_of_eq (by omega : (i 0).val / 5000 < 20) N_0.symm⟩, flush0_3 _, ?_⟩
  rw [mem_blk_users]
  obtain ⟨-, -, -, -, -, -, e0, e1⟩ := idx_users ⟨(i 0).val / 5000, Nat.lt_of_lt_of_eq (by omega : (i 0).val / 5000 < 20) N_0.symm⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- So the output array ends holding the whole-array function of the three arrays the region finds. -/
theorem users_array (c : Dev nD) :
    (ResidualUsers.dat V c).arrAt 3 cfg0.N = usersFn (V c main_arg0) (V c main_arg2) (V c main_v12) :=
  (ResidualUsers.dat V c).arrAt_eq_of_cover 3 _ (fun t _ => flushed_users V c t) cover_users

/-- THE USER TABLE after kernel region 0, as the reference's concatenate stage with the aggregated messages named `g`. -/
theorem users_table (g : (⟨S100000x64, .f32⟩ : BufTy).Contents (Elt F)) (c : Dev nD)
    (he : Run.V1 m c main_arg0 = m ((c : Thread nD τ).loc main_arg0)) (hd : Run.V1 m c main_arg2 = m ((c : Thread nD τ).loc main_arg2))
    (hg : Run.V1 m c main_v12 = g) :
    (Run.V2 m c main_v26 : (⟨S100000x128, .f32⟩ : BufTy).Contents (Elt F)) =
      concatenate Cert.ReferenceIdeal.S100000x128 1 [⟨Cert.ReferenceIdeal.S100000x64, m ((c : Thread nD τ).loc main_arg0)⟩,
        ⟨Cert.ReferenceIdeal.S100000x64, addf g (Cert.ReferenceIdeal.Read.val_main_v27 (F := F) (m ((c : Thread nD τ).loc main_arg0)) (m ((c : Thread nD τ).loc main_arg2)))⟩]
        Cert.ReferenceIdeal.Facts₀.concatenates_S100000x64_S100000x64_S100000x128_d1 := by
  have h := users_array (Run.V1 m) c
  rw [he, hd, hg] at h
  exact (Run.W2_arr m c 3).trans h

/-! ## The item table (kernel region 1): 10 points of 5000 rows -/

/-- The output block after the body, with the whole-block loads and the identity shape casts read through: the
    embedding block on the left, messages + embedding · (degree column broadcast along the row) on the right. -/
theorem outBlk_items (e : Vec F S5000x64 .f32) (d : Vec F S5000x1 .f32) (g : Vec F S5000x64 .f32) :
    ResidualItems.outBlk e d g
      = concatenate S5000x128 1 [⟨S5000x64, e⟩, ⟨S5000x64, addf g (mulf e (broadcastTo S5000x64 d Facts₀.broadcasts_S5000x1_S5000x64))⟩]
          Facts₀.concatenates_S5000x64_S5000x64_S5000x128_d1 := by
  unfold ResidualItems.outBlk
  rw [View.canon_unit_zero hz]
  simp only [View.ld_unit_zero (S := S5000x64) hz, View.ld_unit_zero (S := S5000x1) hz]
  unfold k1_pay1
  dsimp only
  rw [shapeCast_self g, shapeCast_self d]

/-- The whole-array function: embedding rows on the left, messages + embedding · degree on the right, written with
    the reference's own multiply stage. -/
abbrev itemsFn (E : (⟨Cert.ReferenceIdeal.S50000x64, .f32⟩ : BufTy).Contents (Elt F))
    (D : (⟨Cert.ReferenceIdeal.S50000x1, .f32⟩ : BufTy).Contents (Elt F))
    (G : (⟨Cert.ReferenceIdeal.S50000x64, .f32⟩ : BufTy).Contents (Elt F)) :
    (⟨Cert.ReferenceIdeal.S50000x128, .f32⟩ : BufTy).Contents (Elt F) :=
  concatenate Cert.ReferenceIdeal.S50000x128 1 [⟨Cert.ReferenceIdeal.S50000x64, E⟩,
    ⟨Cert.ReferenceIdeal.S50000x64, addf G (Cert.ReferenceIdeal.Read.val_main_v30 (F := F) E D)⟩]
    Cert.ReferenceIdeal.Facts₀.concatenates_S50000x64_S50000x64_S50000x128_d1

/-- One entry of a point's output block against the whole-array function: block row `y` of point `q` is array row
    `q · 5000 + y`; on the left 64 columns both sides read the embedding there, on the right 64 both read
    messages + embedding · degree there, the degree column read at column 0. -/
theorem entry_items
    (E : (⟨Cert.ReferenceIdeal.S50000x64, .f32⟩ : BufTy).Contents (Elt F))
    (D : (⟨Cert.ReferenceIdeal.S50000x1, .f32⟩ : BufTy).Contents (Elt F))
    (G : (⟨Cert.ReferenceIdeal.S50000x64, .f32⟩ : BufTy).Contents (Elt F))
    (e : Vec F S5000x64 .f32) (d : Vec F S5000x1 .f32) (g : Vec F S5000x64 .f32) (q : Nat)
    (he : ∀ (y : S5000x64.Idx) (k : Cert.ReferenceIdeal.S50000x64.Idx), (k 0).val = q * 5000 + (y 0).val → (k 1).val = (y 1).val → e y = E k)
    (hd : ∀ (y : S5000x1.Idx) (k : Cert.ReferenceIdeal.S50000x1.Idx), (k 0).val = q * 5000 + (y 0).val → (k 1).val = (y 1).val → d y = D k)
    (hg : ∀ (y : S5000x64.Idx) (k : Cert.ReferenceIdeal.S50000x64.Idx), (k 0).val = q * 5000 + (y 0).val → (k 1).val = (y 1).val → g y = G k)
    (j : S5000x128.Idx) (i : Cert.ReferenceIdeal.S50000x128.Idx) (hi0 : (i 0).val = q * 5000 + (j 0).val) (hi1 : (i 1).val = (j 1).val) :
    concatenate S5000x128 1 [⟨S5000x64, e⟩, ⟨S5000x64, addf g (mulf e (broadcastTo S5000x64 d Facts₀.broadcasts_S5000x1_S5000x64))⟩]
        Facts₀.concatenates_S5000x64_S5000x64_S5000x128_d1 j
      = itemsFn E D G i := by
  have hj0 : (j 0).val < 5000 := (j 0).isLt
  have hj1 : (j 1).val < 128 := (j 1).isLt
  have hI0 : (i 0).val < 50000 := (i 0).isLt
  have hI1 : (i 1).val < 128 := (i 1).isLt
  by_cases hlt : (j 1).val < 64
  · have hlt' : (i 1).val < 64 := by omega
    refine (concatenate_pair_apply_left (t := S5000x128) (s₁ := S5000x64) (s₂ := S5000x64) (1 : Fin 2) e _ _ j rfl
      (ValueIdx.ix2 (n0 := 5000) (n1 := 64) ⟨(j 0).val, hj0⟩ ⟨(j 1).val, hlt⟩) ?_).trans ?_
    · intro b; match b with | ⟨0, _⟩ => rfl | ⟨1, _⟩ => rfl
    refine Eq.trans ?_ (concatenate_pair_apply_left (t := Cert.ReferenceIdeal.S50000x128) (s₁ := Cert.ReferenceIdeal.S50000x64)
      (s₂ := Cert.ReferenceIdeal.S50000x64) (1 : Fin 2) E _ _ i rfl
      (ValueIdx.ix2 (n0 := 50000) (n1 := 64) ⟨(i 0).val, hI0⟩ ⟨(i 1).val, hlt'⟩) ?_).symm
    · exact he _ _ hi0 hi1
    · intro b; match b with | ⟨0, _⟩ => rfl | ⟨1, _⟩ => rfl
  · have hge : 64 ≤ (j 1).val := Nat.not_lt.1 hlt
    have hj1' : (j 1).val - 64 < 64 := by omega
    have hi1' : (i 1).val - 64 < 64 := by omega
    refine (concatenate_pair_apply_right (t := S5000x128) (s₁ := S5000x64) (s₂ := S5000x64) (1 : Fin 2) e _ _ j rfl rfl
      (ValueIdx.ix2 (n0 := 5000) (n1 := 64) ⟨(j 0).val, hj0⟩ ⟨(j 1).val - 64, hj1'⟩) ?_ ?_).trans ?_
    · intro b; match b with
      | ⟨0, _⟩ => intro _; rfl
      | ⟨1, _⟩ => intro hne; exact absurd rfl hne
    · show (j 1).val - 64 + 64 = (j 1).val; omega
    refine Eq.trans ?_ (concatenate_pair_apply_right (t := Cert.ReferenceIdeal.S50000x128) (s₁ := Cert.ReferenceIdeal.S50000x64)
      (s₂ := Cert.ReferenceIdeal.S50000x64) (1 : Fin 2) E _ _ i rfl rfl
      (ValueIdx.ix2 (n0 := 50000) (n1 := 64) ⟨(i 0).val, hI0⟩ ⟨(i 1).val - 64, hi1'⟩) ?_ ?_).symm
    · -- the right half at block entry (y0, y1) and array entry (q · 5000 + y0, y1)
      have e1 := hg (ValueIdx.ix2 (n0 := 5000) (n1 := 64) ⟨(j 0).val, hj0⟩ ⟨(j 1).val - 64, hj1'⟩)
        (ValueIdx.ix2 (n0 := 50000) (n1 := 64) ⟨(i 0).val, hI0⟩ ⟨(i 1).val - 64, hi1'⟩) hi0
        (by show (i 1).val - 64 = (j 1).val - 64; omega)
      have e2 := he (ValueIdx.ix2 (n0 := 5000) (n1 := 64) ⟨(j 0).val, hj0⟩ ⟨(j 1).val - 64, hj1'⟩)
        (ValueIdx.ix2 (n0 := 50000) (n1 := 64) ⟨(i 0).val, hI0⟩ ⟨(i 1).val - 64, hi1'⟩) hi0
        (by show (i 1).val - 64 = (j 1).val - 64; omega)
      have e3 : broadcastTo S5000x64 d Facts₀.broadcasts_S5000x1_S5000x64
            (ValueIdx.ix2 (n0 := 5000) (n1 := 64) ⟨(j 0).val, hj0⟩ ⟨(j 1).val - 64, hj1'⟩)
          = d (ValueIdx.ix2 (n0 := 5000) (n1 := 1) ⟨(j 0).val, hj0⟩ ⟨0, Nat.one_pos⟩) :=
        broadcastTo_apply d _ _ _ (fun a => match a with
          | ⟨0, _⟩ => by show (j 0).val = if (5000 : Nat) = 1 then 0 else (j 0).val; rw [if_neg (by decide)]
          | ⟨1, _⟩ => by show 0 = if (1 : Nat) = 1 then 0 else (j 1).val - 64; rw [if_pos rfl])
      have e4 := Cert.ReferenceIdeal.Read.val_main_v29_apply (F := F) D
        (ValueIdx.ix2 (n0 := 50000) (n1 := 64) ⟨(i 0).val, hI0⟩ ⟨(i 1).val - 64, hi1'⟩)
      have e5 := hd (ValueIdx.ix2 (n0 := 5000) (n1 := 1) ⟨(j 0).val, hj0⟩ ⟨0, Nat.one_pos⟩)
        (Cert.ReferenceIdeal.Read.idx_main_v29 (ValueIdx.ix2 (n0 := 50000) (n1 := 64) ⟨(i 0).val, hI0⟩ ⟨(i 1).val - 64, hi1'⟩)) hi0 rfl
      show FloatOps.addf (g _) (FloatOps.mulf (e _) (broadcastTo S5000x64 d Facts₀.broadcasts_S5000x1_S5000x64 _))
        = FloatOps.addf (G _) (FloatOps.mulf (E _) (Cert.ReferenceIdeal.Read.val_main_v29 (F := F) D _))
      rw [e1, e2, e3, e4, e5]
    · intro b; match b with
      | ⟨0, _⟩ => intro _; rfl
      | ⟨1, _⟩ => intro hne; exact absurd rfl hne
    · show (i 1).val - 64 + 64 = (i 1).val; omega

/-- The printed index maps over the 10 points: every window's block index is (the point, 0). -/
theorem idx_items : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `y` of point `t`'s embedding block is row `t · 5000 + y` of the embedding table as the region finds it, -/
theorem blk_items_e (c : Dev nD) (t : Fin cfg1.N) (y : S5000x64.Idx) (k : Cert.ReferenceIdeal.S50000x64.Idx)
    (h0 : (k 0).val = t.val * 5000 + (y 0).val) (h1 : (k 1).val = (y 1).val) :
    (ResidualItems.blk V c 0 t : Vec F S5000x64 .f32) y = (V c main_arg1 : Cert.ReferenceIdeal.S50000x64.Idx → Elt F .f32) k := by
  obtain ⟨e0, e1, -⟩ := idx_items t
  unfold ResidualItems.blk
  rw [View.read_apply]
  show V c main_arg1 _ = V c main_arg1 _
  congr 1
  funext a; apply Fin.ext
  match a with
  | ⟨0, _⟩ => show win1_0.index t (0 : Fin 2) * 5000 + 1 * (y 0).val = (k 0).val; rw [e0, h0]; omega
  | ⟨1, _⟩ => show win1_0.index t (1 : Fin 2) * 64 + 1 * (y 1).val = (k 1).val; rw [e1, h1]; omega

/-- of its degree block, of the degree column, -/
theorem blk_items_d (c : Dev nD) (t : Fin cfg1.N) (y : S5000x1.Idx) (k : Cert.ReferenceIdeal.S50000x1.Idx)
    (h0 : (k 0).val = t.val * 5000 + (y 0).val) (h1 : (k 1).val = (y 1).val) :
    (ResidualItems.blk V c 1 t : Vec F S5000x1 .f32) y = (V c main_arg3 : Cert.ReferenceIdeal.S50000x1.Idx → Elt F .f32) k := by
  obtain ⟨-, -, e0, e1, -⟩ := idx_items t
  unfold ResidualItems.blk
  rw [View.read_apply]
  show V c main_arg3 _ = V c main_arg3 _
  congr 1
  funext a; apply Fin.ext
  match a with
  | ⟨0, _⟩ => show win1_1.index t (0 : Fin 2) * 5000 + 1 * (y 0).val = (k 0).val; rw [e0, h0]; omega
  | ⟨1, _⟩ => show win1_1.index t (1 : Fin 2) * 1 + 1 * (y 1).val = (k 1).val; rw [e1, h1]; omega

/-- and of its message block, of the aggregated messages. -/
theorem blk_items_g (c : Dev nD) (t : Fin cfg1.N) (y : S5000x64.Idx) (k : Cert.ReferenceIdeal.S50000x64.Idx)
    (h0 : (k 0).val = t.val * 5000 + (y 0).val) (h1 : (k 1).val = (y 1).val) :
    (ResidualItems.blk V c 2 t : Vec F S5000x64 .f32) y = (V c main_v25 : Cert.ReferenceIdeal.S50000x64.Idx → Elt F .f32) k := by
  obtain ⟨-, -, -, -, e0, e1, -⟩ := idx_items t
  unfold ResidualItems.blk
  rw [View.read_apply]
  show V c main_v25 _ = V c main_v25 _
  congr 1
  funext a; apply Fin.ext
  match a with
  | ⟨0, _⟩ => show win1_2.index t (0 : Fin 2) * 5000 + 1 * (y 0).val = (k 0).val; rw [e0, h0]; omega
  | ⟨1, _⟩ => show win1_2.index t (1 : Fin 2) * 64 + 1 * (y 1).val = (k 1).val; rw [e1, h1]; omega

/-- What point `t` writes back is block `t` of the whole-array function of the three arrays the region finds. -/
theorem flushed_items (c : Dev nD) (t : Fin cfg1.N) :
    (ResidualItems.dat V c).flushed 3 t
      = ((cfg1.win 3).blk t).view.read (Elt F) (itemsFn (V c main_arg1) (V c main_arg3) (V c main_v25)) := by
  obtain ⟨-, -, -, -, -, -, e0, e1⟩ := idx_items t
  show (cfg1.win 3).cut (grid1.coords t) ((ResidualItems.dat V c).after 3 t) = _
  rw [ResidualItems.after_3, outBlk_items]
  funext j
  rw [View.read_apply]
  refine entry_items (V c main_arg1) (V c main_arg3) (V c main_v25) _ _ _ t.val
    (blk_items_e V c t) (blk_items_d V c t) (blk_items_g V c t) ((cfg1.win 3).xinj (grid1.coords t) j) _ ?_ ?_
  · show win1_3.index t (0 : Fin 2) * 5000 + 1 * (j 0).val = t.val * 5000 + (j 0).val; rw [e0]; omega
  · show win1_3.index t (1 : Fin 2) * 128 + 1 * (j 1).val = (j 1).val; rw [e1]; omega

/-- An index of the output array is in point `t`'s block iff each coordinate is in the block's range on its axis. -/
theorem mem_blk_items (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v27).slice (win1_3.rect t)).set ↔ _
  rw [View.set_slice_whole, Rect.mem_set_unit]
  exact Iff.rfl

/-- Row `r` of the output array is in the block of point `r / 5000`: the 10 blocks tile the array. -/
theorem cover_items (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 5000, Nat.lt_of_lt_of_eq (by omega : (i 0).val / 5000 < 10) N_1.symm⟩, flush1_3 _, ?_⟩
  rw [mem_blk_items]
  obtain ⟨-, -, -, -, -, -, e0, e1⟩ := idx_items ⟨(i 0).val / 5000, Nat.lt_of_lt_of_eq (by omega : (i 0).val / 5000 < 10) N_1.symm⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- So the output array ends holding the whole-array function of the three arrays the region finds. -/
theorem items_array (c : Dev nD) :
    (ResidualItems.dat V c).arrAt 3 cfg1.N = itemsFn (V c main_arg1) (V c main_arg3) (V c main_v25) :=
  (ResidualItems.dat V c).arrAt_eq_of_cover 3 _ (fun t _ => flushed_items V c t) cover_items

/-- THE ITEM TABLE after kernel region 1, as the reference's concatenate stage with the aggregated messages named `g`. -/
theorem items_table (g : (⟨S50000x64, .f32⟩ : BufTy).Contents (Elt F)) (c : Dev nD)
    (he : Run.V2 m c main_arg1 = m ((c : Thread nD τ).loc main_arg1)) (hd : Run.V2 m c main_arg3 = m ((c : Thread nD τ).loc main_arg3))
    (hg : Run.V2 m c main_v25 = g) :
    (Run.V3 m c main_v27 : (⟨S50000x128, .f32⟩ : BufTy).Contents (Elt F)) =
      concatenate Cert.ReferenceIdeal.S50000x128 1 [⟨Cert.ReferenceIdeal.S50000x64, m ((c : Thread nD τ).loc main_arg1)⟩,
        ⟨Cert.ReferenceIdeal.S50000x64, addf g (Cert.ReferenceIdeal.Read.val_main_v30 (F := F) (m ((c : Thread nD τ).loc main_arg1)) (m ((c : Thread nD τ).loc main_arg3)))⟩]
        Cert.ReferenceIdeal.Facts₀.concatenates_S50000x64_S50000x64_S50000x128_d1 := by
  have h := items_array (Run.V2 m) c
  rw [he, hd, hg] at h
  exact (Run.W3_arr m c 3).trans h

end Cert.KernelIdeal.ConcatValue

end
-- ==== Proof.GatherValueI.lean ====
/-
  What the program returns, given what the two residual-concat regions left.  The user-batch gather copies, at point
  t of 4096, row user[t] of the user table (reshaped to [100000, 1, 128]) into row t of a [4096, 1, 128] array, which
  the host reshapes to [4096, 128]: result 0.  The item-batch gather does the same at 8192 points from the item table
  (reshaped to [50000, 1, 128]) with the row numbers item_i ++ item_j; the host reshapes its [8192, 1, 128] array to
  [8192, 128] and returns rows 0 … 4095 (result 1) and rows 4096 … 8191 (result 2).
  Kernel side: a gather region's output window has one [1, 1, 128] block per point, block t at row t, and the body
  leaves in it the input block, which is the table's row the index table names at t; so the blocks cover the output
  array and it ends holding "row i is the table's row table[i]" (the row number kept inside the table, as the region's
  side condition already has it).  The reshapes on either side only add or drop the unit middle axis.
  Reference side: the reference gathers rows of the same table at an index column that first wraps negative row numbers
  (adds the table's height) and is then clamped into the table by the gather itself; on row numbers in [0, height) the
  wrap is not taken and the clamp changes nothing, and a nonnegative word reads the same signed and unsigned.
  Both sides are "row i of the result is row idx[i] of the table".
-/
import proofs.«418848_j35158602285525_2_alg».proof.Proof.RunDefsI
import proofs.«418848_j35158602285525_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.GatherValue

open Cert.KernelIdeal Cert.KernelIdeal.Gen Cert.KernelIdeal.Tables Cert.KernelIdeal.Run
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

/- Rank-2 and rank-3 indices from their coordinates (the program's own `ix2`, `ix3` are its gathers' index maps). -/
local notation "jx2" => Idealize.ShloMosaic.ValueIdx.ix2
local notation "jx3" => Idealize.ShloMosaic.ValueIdx.ix3

/-! ## A row gather read at an index -/

section Rows
variable {α : Type}

/-- The dimension numbers of a gather of whole rows of an [N, 128] table at a [4096, 1] column of row numbers (offset
    axis 1, collapsed axis 0, start index map [0], slices [1, 128], index vector axis 1). -/
abbrev rowDims (N : Nat) (wf : GatherDims.WF ⟨2, ![N, 128]⟩ ⟨2, ![4096, 1]⟩ ⟨2, ![4096, 128]⟩ [1] [0] [] [0] [] 1 ![1, 128]) :
    GatherDims ⟨2, ![N, 128]⟩ ⟨2, ![4096, 1]⟩ ⟨2, ![4096, 128]⟩ where
  offsetDims := [1]
  collapsedSliceDims := [0]
  operandBatchingDims := []
  startIndicesBatchingDims := []
  startIndexMap := [0]
  indexVectorDim := 1
  sliceSizes := ![1, 128]
  wf := wf

/-- THE GATHER READ AT (i, l): the table at row idx[i, 0], read signed and clamped into [0, N − 1], and column l. -/
theorem gather_rows_apply {N w : Nat} (hN : 0 < N)
    (wf : GatherDims.WF ⟨2, ![N, 128]⟩ ⟨2, ![4096, 1]⟩ ⟨2, ![4096, 128]⟩ [1] [0] [] [0] [] 1 ![1, 128])
    (x : (⟨2, ![N, 128]⟩ : Shape).Idx → α) (idx : IVec ⟨2, ![4096, 1]⟩ w) (j : (⟨2, ![4096, 128]⟩ : Shape).Idx) :
    Host.gather (rowDims N wf) x idx j
      = x (jx2 ⟨min (idx (jx2 (j 0) ⟨0, Nat.one_pos⟩)).toInt.toNat (N - 1), by omega⟩ (j 1)) := by
  unfold Host.gather
  congr 1
  funext a
  refine Fin.ext ?_
  match a with
  | ⟨0, _⟩ =>
    show (rowDims N wf).start j idx 0 + (rowDims N wf).batchCoord j 0 + (rowDims N wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx j ⟨List.idxOf (0 : Fin 2) (rowDims N wf).startIndexMap,
        List.idxOf_lt_length_iff.2 (List.mem_singleton.mpr rfl)⟩ = jx2 (j 0) ⟨0, Nat.one_pos⟩ := by
      funext b; refine Fin.ext ?_
      match b with
      | ⟨0, _⟩ => rfl
      | ⟨1, _⟩ => rfl
    rw [hsi]
    rfl
  | ⟨1, _⟩ =>
    show (rowDims N wf).start j idx 1 + (rowDims N wf).batchCoord j 1 + (rowDims N wf).offCoord j 1 = (j 1).val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end Rows

variable (m : (ℓ : Loc nD τ sig) → Buf (Elt F) ℓ) (a2 : (pcfg2 (F := F)).Adm) (a3 : (pcfg3 (F := F)).Adm)

/-! ## The user-batch gather: 4096 points over the [100000, 1, 128] table -/

theorem N2 : (cfg2 a2).N = 4096 := N_2

/-- On a one-axis grid the point's one coordinate is the point. -/

theorem coords2 (t : Fin (cfg2 a2).N) : ((cfg2 a2).grid.coords t 0).val = t.val := by
  have ht : t.val < 4096 := (N2 a2) ▸ t.isLt
  show t.val / (cfg2 a2).grid.stride 0 % 4096 = t.val
  have hs : (cfg2 a2).grid.stride 0 = 1 := (by decide : grid2.stride 0 = 1)
  rw [hs, Nat.div_one, Nat.mod_eq_of_lt ht]

/-- The word the index map reads at grid coordinate i, at any table contents: the table at i. -/
theorem word2 (pf : pre2.Contents (Elt F)) (i : grid2.Coords) :
    (pf.at 0 (Rect.unit (s := S4096) ![(Scalar.indexCast (BitVec.ofNat 32 (i 0).val)).toNat] S1.size (k2_off1_inb i)) numel1_S1 : BitVec 32)
      = pf 0 (ix1 ⟨(i 0).val, (i 0).isLt⟩) := by
  show pf 0 _ = pf 0 _
  congr 1
  refine funext fun (a : Fin 1) => Fin.ext ?_
  obtain rfl : a = 0 := Subsingleton.elim _ _
  show (BitVec.ofNat 32 (i 0).val).toNat + 1 * 0 = (i 0).val
  have hlt : (i 0).val < 4096 := (i 0).isLt
  rw [BitVec.toNat_ofNat, Nat.mod_eq_of_lt (by omega)]
  omega

/-- The user table's word for output row r, as a row number. -/
def wU (pf : pre2.Contents (Elt F)) (r : Fin 4096) : Nat := (pf 0 (ix1 r) : BitVec 32).toNat

/-- The input window's block index at point t: the row the table names there. -/
theorem index2_0 (t : Fin (cfg2 a2).N) :
    ((cfg2 a2).win 0).index t = ![wU a2.1 ⟨((cfg2 a2).grid.coords t 0).val, ((cfg2 a2).grid.coords t 0).isLt⟩, 0, 0] :=
  congrArg (fun w : BitVec 32 => (![w.toNat, 0, 0] : Fin 3 → Nat)) (word2 a2.1 ((cfg2 a2).grid.coords t))

/-- The output window's block index at point t: row t. -/
theorem index2_1 (t : Fin (cfg2 a2).N) : ((cfg2 a2).win 1).index t = ![t.val, 0, 0] := by
  show (![(BitVec.ofNat 32 ((cfg2 a2).grid.coords t 0).val).toNat, 0, 0] : Fin 3 → Nat) = _
  have ht : t.val < 4096 := (N2 a2) ▸ t.isLt
  rw [coords2, BitVec.toNat_ofNat, Nat.mod_eq_of_lt (by omega)]

/-- Every point writes its output block back: the next point's block is another row. -/
theorem flush2_1 (t : Fin (cfg2 a2).N) : ((cfg2 a2).win 1).flush t = true := by
  unfold Window.flush
  show (true && _) = true
  rw [Bool.true_and, Bool.or_eq_true, decide_eq_true_eq, decide_eq_true_eq]
  by_cases h : t.val + 1 = (cfg2 a2).grid.N
  · exact Or.inl h
  · have hN : (cfg2 a2).grid.N = 4096 := N_2
    have ht : t.val < 4096 := (N2 a2) ▸ t.isLt
    refine Or.inr ⟨by omega, fun e => ?_⟩
    have e0 := congrFun e (0 : Fin 3)
    rw [index2_1, index2_1] at e0
    exact absurd e0 (by show t.val + 1 ≠ t.val; omega)

/-- The zero offsets of a whole-block rectangle, however spelt. -/
theorem hz3 : (![0, 0, 0] : Fin 3 → Nat) = fun _ => 0 := funext fun a => by
  match a with | ⟨0, _⟩ => rfl | ⟨1, _⟩ => rfl | ⟨2, _⟩ => rfl

/-- The body's payload is its operand: a shape cast at the same shape. -/
theorem pay2_eq (x : Vec F S1x1x128 .f32) : k2_pay1 x = x := by
  unfold k2_pay1; exact shapeCast_self x _

/-- The output row the body leaves is the input row. -/
theorem outRow2_eq (x : Vec F S1x1x128 .f32) : GatherUsers.outRow x = x := by
  unfold GatherUsers.outRow
  rw [View.canon_unit_zero hz3, View.ld_unit_zero (S := S1x1x128) hz3, pay2_eq]

/-- The table row the gather names for output row r: the index table's word there, kept inside the table. -/
def rowU (pf : pre2.Contents (Elt F)) (r : Fin 4096) : Fin 100000 :=
  ⟨min (wU pf r) 99999, by omega⟩

/-- Row i of the gathered array is row rowU i of the table. -/
def GU (pf : pre2.Contents (Elt F)) (X : (⟨S100000x1x128, .f32⟩ : BufTy).Contents (Elt F)) : (⟨S4096x1x128, .f32⟩ : BufTy).Contents (Elt F) :=
  fun i => X (jx3 (rowU pf (i 0)) ⟨0, Nat.one_pos⟩ (i 2))

/-- WHAT POINT t WRITES BACK is block t of GU of the table as the region finds it. -/
theorem flushed2 (V : (c : Dev nD) → (b : Ref sig .tc) → Buf (Elt F) ((c : Thread nD τ).loc b)) (c : Dev nD) (t : Fin (cfg2 a2).N) :
    (GatherUsers.dat a2 V c).flushed 1 t = (((cfg2 a2).win 1).blk t).view.read (Elt F) (GU a2.1 (V c main_v28)) := by
  show ((cfg2 a2).win 1).cut ((cfg2 a2).grid.coords t) ((GatherUsers.dat a2 V c).after 1 t) = _
  rw [GatherUsers.after_1]
  funext (j : S1x1x128.Idx)
  refine (congrFun (outRow2_eq (F := F) (GatherUsers.blk a2 V c 0 t)) (((cfg2 a2).win 1).xinj ((cfg2 a2).grid.coords t) j)).trans ?_
  show V c main_v28 ((((cfg2 a2).win 0).blk t).view.emb j) = GU a2.1 (V c main_v28) ((((cfg2 a2).win 1).blk t).view.emb j)
  have hj0 : (j (0 : Fin 3)).val = 0 := by have h : (j (0 : Fin 3)).val < 1 := (j (0 : Fin 3)).isLt; omega
  have hj1 : (j (1 : Fin 3)).val = 0 := by have h : (j (1 : Fin 3)).val < 1 := (j (1 : Fin 3)).isLt; omega
  have ht : t.val < 4096 := (N2 a2) ▸ t.isLt
  have e0 := index2_0 a2 t
  have e1 := index2_1 a2 t
  have hb : (((cfg2 a2).win 0).index t (0 : Fin 3) + 1) * 1 ≤ 100000 := hinb2 (F := F) a2.1 a2.2 0 ((cfg2 a2).grid.coords t) (0 : Fin 3)
  have r1 : ((((cfg2 a2).win 1).blk t).view.emb j (0 : Fin 3)).val = t.val := by
    show ((cfg2 a2).win 1).index t (0 : Fin 3) * 1 + 1 * (j (0 : Fin 3)).val = t.val
    rw [e1, hj0]; show t.val * 1 + 1 * 0 = t.val; omega
  unfold GU
  show V c main_v28 _ = V c main_v28 _
  congr 1
  funext (a : Fin 3)
  apply Fin.ext
  match a with
  | ⟨0, _⟩ =>
    show ((cfg2 a2).win 0).index t (0 : Fin 3) * 1 + 1 * (j (0 : Fin 3)).val
      = min (wU a2.1 ((((cfg2 a2).win 1).blk t).view.emb j (0 : Fin 3))) 99999
    have hr' : ((((cfg2 a2).win 1).blk t).view.emb j (0 : Fin 3) : Fin 4096)
        = ⟨((cfg2 a2).grid.coords t 0).val, ((cfg2 a2).grid.coords t 0).isLt⟩ := Fin.ext (r1.trans (coords2 a2 t).symm)
    rw [hr', hj0, e0]
    rw [e0] at hb
    have hb' : (wU a2.1 ⟨((cfg2 a2).grid.coords t 0).val, ((cfg2 a2).grid.coords t 0).isLt⟩ + 1) * 1 ≤ 100000 := hb
    show wU a2.1 ⟨((cfg2 a2).grid.coords t 0).val, ((cfg2 a2).grid.coords t 0).isLt⟩ * 1 + 1 * 0 = min (wU a2.1 ⟨((cfg2 a2).grid.coords t 0).val, ((cfg2 a2).grid.coords t 0).isLt⟩) 99999
    omega
  | ⟨1, _⟩ =>
    show ((cfg2 a2).win 0).index t (1 : Fin 3) * 1 + 1 * (j (1 : Fin 3)).val = 0
    rw [e0, hj1]; rfl
  | ⟨2, _⟩ =>
    show ((cfg2 a2).win 0).index t (2 : Fin 3) * 128 + 1 * (j (2 : Fin 3)).val = ((cfg2 a2).win 1).index t (2 : Fin 3) * 128 + 1 * (j (2 : Fin 3)).val
    rw [e0, e1]; rfl

/-- An index of the output array is in point t's block iff each coordinate is in the block's range on its axis. -/
theorem mem_blk2_1 (t : Fin (cfg2 a2).N) (i : S4096x1x128.Idx) :
    i ∈ (((cfg2 a2).win 1).blk t).view.set ↔ ∀ a : Fin 3, ((cfg2 a2).win 1).index t a * S1x1x128.size a ≤ (i a).val ∧ (i a).val < ((cfg2 a2).win 1).index t a * S1x1x128.size a + S1x1x128.size a := by
  have h : (((cfg2 a2).win 1).blk t).view.set = (((cfg2 a2).win 1).rect t).set := View.set_slice_whole main_v29 _
  rw [h]
  exact Rect.mem_set_unit

/-- Row i of the output array is point i's block. -/
theorem cover2 (i : S4096x1x128.Idx) : ∃ t : Fin (cfg2 a2).N, ((cfg2 a2).win 1).flush t = true ∧ i ∈ (((cfg2 a2).win 1).blk t).view.set := by
  have hi0 : (i (0 : Fin 3)).val < 4096 := (i (0 : Fin 3)).isLt
  have hi1 : (i (1 : Fin 3)).val < 1 := (i (1 : Fin 3)).isLt
  have hi2 : (i (2 : Fin 3)).val < 128 := (i (2 : Fin 3)).isLt
  refine ⟨⟨(i (0 : Fin 3)).val, by rw [N2]; exact hi0⟩, flush2_1 a2 _, ?_⟩
  rw [mem_blk2_1]
  intro a
  rw [index2_1]
  match a with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 128 ≤ (i (2 : Fin 3)).val ∧ (i (2 : Fin 3)).val < 0 * 128 + 128; omega

/-- THE ARRAY the user-batch gather leaves: GU of the table as the region finds it. -/
theorem final2 (V : (c : Dev nD) → (b : Ref sig .tc) → Buf (Elt F) ((c : Thread nD τ).loc b)) (c : Dev nD) :
    (GatherUsers.dat a2 V c).arrAt 1 (cfg2 a2).N = GU a2.1 (V c main_v28) :=
  (GatherUsers.dat a2 V c).arrAt_eq_of_cover 1 (GU a2.1 (V c main_v28)) (fun t _ => flushed2 a2 V c t) (cover2 a2)

/-! ## The unit middle axis added or dropped by a reshape -/

section Casts
variable {α : Type}

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (jx2 i j) = x (jx3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (jx3 i u j) = x (jx2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Casts

/-- RESULT 0, KERNEL SIDE: row i of what the program returns first is row rowU i of the user table as the two
    residual-concat regions left it. -/
theorem kern_users (TU : (⟨S100000x128, .f32⟩ : BufTy).Contents (Elt F)) (c : Dev nD) (hT : V3 m c main_v26 = TU)
    (j : S4096x128.Idx) :
    (W8 m a2 a3 c (Proc.devRef .tc main_v30) : (⟨S4096x128, .f32⟩ : BufTy).Contents (Elt F)) j
      = TU (jx2 (rowU a2.1 (j 0)) (j 1)) := by
  have e8 : (W8 m a2 a3 c (Proc.devRef .tc main_v30) : (⟨S4096x128, .f32⟩ : BufTy).Contents (Elt F))
      = W7 m a2 a3 c (Proc.devRef .tc main_v30) :=
    StableHlo.after_of_writes_sub hostOps4 _ hostOps4_writes (by decide)
  have e7 : W7 m a2 a3 c (Proc.devRef .tc main_v30) = W6 m a2 c (Proc.devRef .tc main_v30) :=
    W7_of_ne m a2 a3 c main_v30 (by decide)
  have e6 : (W6 m a2 c (Proc.devRef .tc main_v30) : (⟨S4096x128, .f32⟩ : BufTy).Contents (Elt F))
      = shapeCast S4096x128 (W5 m a2 c (Proc.devRef .tc main_v29) : (⟨S4096x1x128, .f32⟩ : BufTy).Contents (Elt F)) shapeCasts_S4096x1x128_S4096x128 := by
    show StableHlo.after hostOps3 _ (Proc.devRef .tc main_v30) = _
    after_results
    rfl
  have e5 : (W5 m a2 c (Proc.devRef .tc main_v29) : (⟨S4096x1x128, .f32⟩ : BufTy).Contents (Elt F)) = GU a2.1 (V4 m c main_v28) :=
    (W5_arr m a2 c 1).trans (final2 a2 (V4 m) c)
  have e4 : (V4 m c main_v28 : (⟨S100000x1x128, .f32⟩ : BufTy).Contents (Elt F))
      = shapeCast S100000x1x128 (V3 m c main_v26 : (⟨S100000x128, .f32⟩ : BufTy).Contents (Elt F)) shapeCasts_S100000x128_S100000x1x128 := by
    show StableHlo.after hostOps2 _ (Proc.devRef .tc main_v28) = _
    after_results
    rfl
  rw [e8, e7, e6, e5, e4, hT, eq_ix2 j]
  refine (shapeCast_a1b_ab_apply _ _ _ _).trans ?_
  exact shapeCast_ab_a1b_apply TU _ _ _ _

/-! ## The reference's index column, and result 0 -/

/-- A word that is signed-nonnegative reads unsigned what it reads signed. -/
theorem toInt_toNat_of_nonneg {w : BitVec 32} (h : 0 ≤ w.toInt) : w.toInt.toNat = w.toNat := by
  have h32 := w.isLt
  rw [BitVec.toInt_eq_toNat_cond] at h ⊢
  by_cases hc : 2 * w.toNat < 2 ^ 32
  · rw [if_pos hc]; exact Int.toNat_natCast _
  · rw [if_neg hc] at h; omega

/-- The reference's wrap of a negative index leaves a nonnegative word as it is. -/
theorem wrap_of_nonneg (w k : BitVec 32) (h : 0 ≤ w.toInt) :
    Scalar.select (IntOp.cmpi .slt w 0#32) (IntOp.addi w k) w = w := by
  have hne : ¬ IntOp.cmpi .slt w 0#32 = 1#1 := fun e => by
    have h1 := IntOp.cmpi_slt.1 e
    have h0 : (0#32 : BitVec 32).toInt = 0 := by decide
    omega
  rw [eq_zero_of_ne_one hne, select_zero]

/-- The reference's index column for the user gather, read at (r, 0): the user argument's word r, when no word is negative. -/
theorem ref_col_users (x8 : (⟨S4096, .i32⟩ : BufTy).Contents (Elt F)) (hr : ∀ i : S4096.Idx, 0 ≤ (x8 i).toInt) (r : Fin 4096) :
    Cert.ReferenceIdeal.Read.val_main_v39 (F := F) x8 (jx2 r (0 : Fin 1)) = x8 (ix1 r) := by
  rw [Cert.ReferenceIdeal.Read.val_main_v39_apply, Cert.ReferenceIdeal.Read.val_main_v38_apply,
    Cert.ReferenceIdeal.Read.val_main_v35_apply, Cert.ReferenceIdeal.Read.val_main_v34_apply, Cert.ReferenceIdeal.Read.val_main_c_4_apply]
  have hi : Cert.ReferenceIdeal.Read.idx_main_v39 (jx2 r (0 : Fin 1)) = ix1 r := by
    funext a; match a with | ⟨0, _⟩ => rfl
  rw [hi]
  exact wrap_of_nonneg _ _ (hr _)

/-- RESULT 0, REFERENCE SIDE: the reference's gather over a table TU at its wrapped index column reads row
    user[i] of TU at row i, when every word of user names a row of TU. -/
theorem ref_users (TU : (⟨S100000x128, .f32⟩ : BufTy).Contents (Elt F)) (x8 : (⟨S4096, .i32⟩ : BufTy).Contents (Elt F))
    (hr : ∀ i : S4096.Idx, 0 ≤ (x8 i).toInt ∧ (x8 i).toInt < 100000) (j : S4096x128.Idx) :
    Host.gather Cert.ReferenceIdeal.gather_S100000x128_S4096x1_S4096x128_1_0_n_n_0_1_1128 TU (Cert.ReferenceIdeal.Read.val_main_v39 (F := F) x8) j
      = TU (jx2 (⟨min (x8 (ix1 (j 0))).toNat 99999, by omega⟩ : Fin 100000) (j 1)) := by
  refine (gather_rows_apply (N := 100000) (by decide) _ TU _ j).trans ?_
  congr 2
  apply Fin.ext
  refine (congrArg (fun w : BitVec 32 => min w.toInt.toNat (100000 - 1)) (ref_col_users x8 (fun i => (hr i).1) (j 0))).trans ?_
  exact congrArg (fun n : Nat => min n 99999) (toInt_toNat_of_nonneg (hr _).1)

/-- RESULT 0: what the program returns first is the reference's gather of the user table the two residual-concat
    regions left, at the reference's own index column. -/
theorem out_users (TU : (⟨S100000x128, .f32⟩ : BufTy).Contents (Elt F)) (c : Dev nD) (hT : V3 m c main_v26 = TU) (ha2 : a2.1 = tblUsers m)
    (hr : ∀ i : S4096.Idx, 0 ≤ (userArg m i).toInt ∧ (userArg m i).toInt < 100000) :
    (W8 m a2 a3 c (Proc.devRef .tc main_v30) : (⟨S4096x128, .f32⟩ : BufTy).Contents (Elt F)) =
      Host.gather Cert.ReferenceIdeal.gather_S100000x128_S4096x1_S4096x128_1_0_n_n_0_1_1128 TU
        (Cert.ReferenceIdeal.Read.val_main_v39 (F := F) (m ((c : Thread nD τ).loc main_arg8))) := by
  funext j
  obtain rfl : c = 0 := Subsingleton.elim _ _
  rw [kern_users m a2 a3 TU 0 hT j]
  refine Eq.symm ((ref_users TU (userArg m) hr j).trans ?_)
  rw [ha2]
  rfl

/-! ## The item-batch gather: 8192 points over the [50000, 1, 128] table -/

theorem N3 : (cfg3 a3).N = 8192 := N_3

/-- On a one-axis grid the point's one coordinate is the point. -/
theorem coords3 (t : Fin (cfg3 a3).N) : ((cfg3 a3).grid.coords t 0).val = t.val := by
  have ht : t.val < 8192 := (N3 a3) ▸ t.isLt
  show t.val / (cfg3 a3).grid.stride 0 % 8192 = t.val
  have hs : (cfg3 a3).grid.stride 0 = 1 := (by decide : grid3.stride 0 = 1)
  rw [hs, Nat.div_one, Nat.mod_eq_of_lt ht]

/-- The word the index map reads at grid coordinate i, at any table contents: the table at i. -/
theorem word3 (pf : pre3.Contents (Elt F)) (i : grid3.Coords) :
    (pf.at 0 (Rect.unit (s := S8192) ![(Scalar.indexCast (BitVec.ofNat 32 (i 0).val)).toNat] S1.size (k3_off1_inb i)) numel1_S1 : BitVec 32)
      = pf 0 (ix1 ⟨(i 0).val, (i 0).isLt⟩) := by
  show pf 0 _ = pf 0 _
  congr 1
  refine funext fun (a : Fin 1) => Fin.ext ?_
  obtain rfl : a = 0 := Subsingleton.elim _ _
  show (BitVec.ofNat 32 (i 0).val).toNat + 1 * 0 = (i 0).val
  have hlt : (i 0).val < 8192 := (i 0).isLt
  rw [BitVec.toNat_ofNat, Nat.mod_eq_of_lt (by omega)]
  omega

/-- The item table's word for output row r, as a row number. -/
def wI (pf : pre3.Contents (Elt F)) (r : Fin 8192) : Nat := (pf 0 (ix1 r) : BitVec 32).toNat

/-- The input window's block index at point t: the row the table names there. -/
theorem index3_0 (t : Fin (cfg3 a3).N) :
    ((cfg3 a3).win 0).index t = ![wI a3.1 ⟨((cfg3 a3).grid.coords t 0).val, ((cfg3 a3).grid.coords t 0).isLt⟩, 0, 0] :=
  congrArg (fun w : BitVec 32 => (![w.toNat, 0, 0] : Fin 3 → Nat)) (word3 a3.1 ((cfg3 a3).grid.coords t))

/-- The output window's block index at point t: row t. -/
theorem index3_1 (t : Fin (cfg3 a3).N) : ((cfg3 a3).win 1).index t = ![t.val, 0, 0] := by
  show (![(BitVec.ofNat 32 ((cfg3 a3).grid.coords t 0).val).toNat, 0, 0] : Fin 3 → Nat) = _
  have ht : t.val < 8192 := (N3 a3) ▸ t.isLt
  rw [coords3, BitVec.toNat_ofNat, Nat.mod_eq_of_lt (by omega)]

/-- Every point writes its output block back: the next point's block is another row. -/
theorem flush3_1 (t : Fin (cfg3 a3).N) : ((cfg3 a3).win 1).flush t = true := by
  unfold Window.flush
  show (true && _) = true
  rw [Bool.true_and, Bool.or_eq_true, decide_eq_true_eq, decide_eq_true_eq]
  by_cases h : t.val + 1 = (cfg3 a3).grid.N
  · exact Or.inl h
  · have hN : (cfg3 a3).grid.N = 8192 := N_3
    have ht : t.val < 8192 := (N3 a3) ▸ t.isLt
    refine Or.inr ⟨by omega, fun e => ?_⟩
    have e0 := congrFun e (0 : Fin 3)
    rw [index3_1, index3_1] at e0
    exact absurd e0 (by show t.val + 1 ≠ t.val; omega)

/-- The body's payload is its operand: a shape cast at the same shape. -/
theorem pay3_eq (x : Vec F S1x1x128 .f32) : k3_pay1 x = x := by
  unfold k3_pay1; exact shapeCast_self x _

/-- The output row the body leaves is the input row. -/
theorem outRow3_eq (x : Vec F S1x1x128 .f32) : GatherItems.outRow x = x := by
  unfold GatherItems.outRow
  rw [View.canon_unit_zero hz3, View.ld_unit_zero (S := S1x1x128) hz3, pay3_eq]

/-- The table row the gather names for output row r: the index table's word there, kept inside the table. -/
def rowI (pf : pre3.Contents (Elt F)) (r : Fin 8192) : Fin 50000 :=
  ⟨min (wI pf r) 49999, by omega⟩

/-- Row i of the gathered array is row rowI i of the table. -/
def GI (pf : pre3.Contents (Elt F)) (X : (⟨S50000x1x128, .f32⟩ : BufTy).Contents (Elt F)) : (⟨S8192x1x128, .f32⟩ : BufTy).Contents (Elt F) :=
  fun i => X (jx3 (rowI pf (i 0)) ⟨0, Nat.one_pos⟩ (i 2))

/-- WHAT POINT t WRITES BACK is block t of GI of the table as the region finds it. -/
theorem flushed3 (V : (c : Dev nD) → (b : Ref sig .tc) → Buf (Elt F) ((c : Thread nD τ).loc b)) (c : Dev nD) (t : Fin (cfg3 a3).N) :
    (GatherItems.dat a3 V c).flushed 1 t = (((cfg3 a3).win 1).blk t).view.read (Elt F) (GI a3.1 (V c main_v32)) := by
  show ((cfg3 a3).win 1).cut ((cfg3 a3).grid.coords t) ((GatherItems.dat a3 V c).after 1 t) = _
  rw [GatherItems.after_1]
  funext (j : S1x1x128.Idx)
  refine (congrFun (outRow3_eq (F := F) (GatherItems.blk a3 V c 0 t)) (((cfg3 a3).win 1).xinj ((cfg3 a3).grid.coords t) j)).trans ?_
  show V c main_v32 ((((cfg3 a3).win 0).blk t).view.emb j) = GI a3.1 (V c main_v32) ((((cfg3 a3).win 1).blk t).view.emb j)
  have hj0 : (j (0 : Fin 3)).val = 0 := by have h : (j (0 : Fin 3)).val < 1 := (j (0 : Fin 3)).isLt; omega
  have hj1 : (j (1 : Fin 3)).val = 0 := by have h : (j (1 : Fin 3)).val < 1 := (j (1 : Fin 3)).isLt; omega
  have ht : t.val < 8192 := (N3 a3) ▸ t.isLt
  have e0 := index3_0 a3 t
  have e1 := index3_1 a3 t
  have hb : (((cfg3 a3).win 0).index t (0 : Fin 3) + 1) * 1 ≤ 50000 := hinb3 (F := F) a3.1 a3.2 0 ((cfg3 a3).grid.coords t) (0 : Fin 3)
  have r1 : ((((cfg3 a3).win 1).blk t).view.emb j (0 : Fin 3)).val = t.val := by
    show ((cfg3 a3).win 1).index t (0 : Fin 3) * 1 + 1 * (j (0 : Fin 3)).val = t.val
    rw [e1, hj0]; show t.val * 1 + 1 * 0 = t.val; omega
  unfold GI
  show V c main_v32 _ = V c main_v32 _
  congr 1
  funext (a : Fin 3)
  apply Fin.ext
  match a with
  | ⟨0, _⟩ =>
    show ((cfg3 a3).win 0).index t (0 : Fin 3) * 1 + 1 * (j (0 : Fin 3)).val
      = min (wI a3.1 ((((cfg3 a3).win 1).blk t).view.emb j (0 : Fin 3))) 49999
    have hr' : ((((cfg3 a3).win 1).blk t).view.emb j (0 : Fin 3) : Fin 8192)
        = ⟨((cfg3 a3).grid.coords t 0).val, ((cfg3 a3).grid.coords t 0).isLt⟩ := Fin.ext (r1.trans (coords3 a3 t).symm)
    rw [hr', hj0, e0]
    rw [e0] at hb
    have hb' : (wI a3.1 ⟨((cfg3 a3).grid.coords t 0).val, ((cfg3 a3).grid.coords t 0).isLt⟩ + 1) * 1 ≤ 50000 := hb
    show wI a3.1 ⟨((cfg3 a3).grid.coords t 0).val, ((cfg3 a3).grid.coords t 0).isLt⟩ * 1 + 1 * 0 = min (wI a3.1 ⟨((cfg3 a3).grid.coords t 0).val, ((cfg3 a3).grid.coords t 0).isLt⟩) 49999
    omega
  | ⟨1, _⟩ =>
    show ((cfg3 a3).win 0).index t (1 : Fin 3) * 1 + 1 * (j (1 : Fin 3)).val = 0
    rw [e0, hj1]; rfl
  | ⟨2, _⟩ =>
    show ((cfg3 a3).win 0).index t (2 : Fin 3) * 128 + 1 * (j (2 : Fin 3)).val = ((cfg3 a3).win 1).index t (2 : Fin 3) * 128 + 1 * (j (2 : Fin 3)).val
    rw [e0, e1]; rfl

/-- An index of the output array is in point t's block iff each coordinate is in the block's range on its axis. -/
theorem mem_blk3_1 (t : Fin (cfg3 a3).N) (i : S8192x1x128.Idx) :
    i ∈ (((cfg3 a3).win 1).blk t).view.set ↔ ∀ a : Fin 3, ((cfg3 a3).win 1).index t a * S1x1x128.size a ≤ (i a).val ∧ (i a).val < ((cfg3 a3).win 1).index t a * S1x1x128.size a + S1x1x128.size a := by
  have h : (((cfg3 a3).win 1).blk t).view.set = (((cfg3 a3).win 1).rect t).set := View.set_slice_whole main_v33 _
  rw [h]
  exact Rect.mem_set_unit

/-- Row i of the output array is point i's block. -/
theorem cover3 (i : S8192x1x128.Idx) : ∃ t : Fin (cfg3 a3).N, ((cfg3 a3).win 1).flush t = true ∧ i ∈ (((cfg3 a3).win 1).blk t).view.set := by
  have hi0 : (i (0 : Fin 3)).val < 8192 := (i (0 : Fin 3)).isLt
  have hi1 : (i (1 : Fin 3)).val < 1 := (i (1 : Fin 3)).isLt
  have hi2 : (i (2 : Fin 3)).val < 128 := (i (2 : Fin 3)).isLt
  refine ⟨⟨(i (0 : Fin 3)).val, by rw [N3]; exact hi0⟩, flush3_1 a3 _, ?_⟩
  rw [mem_blk3_1]
  intro a
  rw [index3_1]
  match a with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 128 ≤ (i (2 : Fin 3)).val ∧ (i (2 : Fin 3)).val < 0 * 128 + 128; omega

/-- THE ARRAY the item-batch gather leaves: GI of the table as the region finds it. -/
theorem final3 (V : (c : Dev nD) → (b : Ref sig .tc) → Buf (Elt F) ((c : Thread nD τ).loc b)) (c : Dev nD) :
    (GatherItems.dat a3 V c).arrAt 1 (cfg3 a3).N = GI a3.1 (V c main_v32) :=
  (GatherItems.dat a3 V c).arrAt_eq_of_cover 1 (GI a3.1 (V c main_v32)) (fun t _ => flushed3 a3 V c t) (cover3 a3)

/-- The [8192, 128] array the last host stretch cuts its two results from: row i is row rowI i of the item table
    as the two residual-concat regions left it. -/
theorem kern_items (TI : (⟨S50000x128, .f32⟩ : BufTy).Contents (Elt F)) (c : Dev nD) (hT : V3 m c main_v27 = TI)
    (r : Fin 8192) (l : Fin 128) :
    shapeCast S8192x128 (W7 m a2 a3 c (Proc.devRef .tc main_v33) : (⟨S8192x1x128, .f32⟩ : BufTy).Contents (Elt F)) shapeCasts_S8192x1x128_S8192x128 (jx2 r l)
      = TI (jx2 (rowI a3.1 r) l) := by
  have e7 : (W7 m a2 a3 c (Proc.devRef .tc main_v33) : (⟨S8192x1x128, .f32⟩ : BufTy).Contents (Elt F)) = GI a3.1 (V6 m a2 c main_v32) :=
    (W7_arr m a2 a3 c 1).trans (final3 a3 (V6 m a2) c)
  have e6 : (V6 m a2 c main_v32 : (⟨S50000x1x128, .f32⟩ : BufTy).Contents (Elt F))
      = shapeCast S50000x1x128 (W5 m a2 c (Proc.devRef .tc main_v27) : (⟨S50000x128, .f32⟩ : BufTy).Contents (Elt F)) shapeCasts_S50000x128_S50000x1x128 := by
    show StableHlo.after hostOps3 _ (Proc.devRef .tc main_v32) = _
    after_results
    rfl
  have e5 : W5 m a2 c (Proc.devRef .tc main_v27) = W4 m c (Proc.devRef .tc main_v27) :=
    W5_of_ne m a2 c main_v27 (by decide)
  have e4 : (W4 m c (Proc.devRef .tc main_v27) : (⟨S50000x128, .f32⟩ : BufTy).Contents (Elt F)) = V3 m c main_v27 :=
    StableHlo.after_of_writes_sub hostOps2 _ hostOps2_writes (by decide)
  rw [e7, e6, e5, e4, hT]
  refine (shapeCast_a1b_ab_apply _ _ _ _).trans ?_
  exact shapeCast_ab_a1b_apply TI _ _ _ _

/-! ## The reference's item gathers, and results 1 and 2 -/

/-- The reference's index column for the item_i gather, read at (r, 0): the argument's word r, when no word is negative. -/
theorem ref_col_item_i (x9 : (⟨S4096, .i32⟩ : BufTy).Contents (Elt F)) (hr : ∀ i : S4096.Idx, 0 ≤ (x9 i).toInt) (r : Fin 4096) :
    Cert.ReferenceIdeal.Read.val_main_v46 (F := F) x9 (jx2 r (0 : Fin 1)) = x9 (ix1 r) := by
  rw [Cert.ReferenceIdeal.Read.val_main_v46_apply, Cert.ReferenceIdeal.Read.val_main_v45_apply,
    Cert.ReferenceIdeal.Read.val_main_v42_apply, Cert.ReferenceIdeal.Read.val_main_v41_apply, Cert.ReferenceIdeal.Read.val_main_c_6_apply]
  have hi : Cert.ReferenceIdeal.Read.idx_main_v46 (jx2 r (0 : Fin 1)) = ix1 r := by
    funext a; match a with | ⟨0, _⟩ => rfl
  rw [hi]
  exact wrap_of_nonneg _ _ (hr _)

/-- The same for the item_j gather. -/
theorem ref_col_item_j (x10 : (⟨S4096, .i32⟩ : BufTy).Contents (Elt F)) (hr : ∀ i : S4096.Idx, 0 ≤ (x10 i).toInt) (r : Fin 4096) :
    Cert.ReferenceIdeal.Read.val_main_v53 (F := F) x10 (jx2 r (0 : Fin 1)) = x10 (ix1 r) := by
  rw [Cert.ReferenceIdeal.Read.val_main_v53_apply, Cert.ReferenceIdeal.Read.val_main_v52_apply,
    Cert.ReferenceIdeal.Read.val_main_v49_apply, Cert.ReferenceIdeal.Read.val_main_v48_apply, Cert.ReferenceIdeal.Read.val_main_c_8_apply]
  have hi : Cert.ReferenceIdeal.Read.idx_main_v53 (jx2 r (0 : Fin 1)) = ix1 r := by
    funext a; match a with | ⟨0, _⟩ => rfl
  rw [hi]
  exact wrap_of_nonneg _ _ (hr _)

/-- REFERENCE SIDE for the item table: the reference's gather over a table TI at an index column that reads x at
    (r, 0) reads row x[i] of TI at row i, when every word of x names a row of TI. -/
theorem ref_items (TI : (⟨S50000x128, .f32⟩ : BufTy).Contents (Elt F)) (x : (⟨S4096, .i32⟩ : BufTy).Contents (Elt F))
    (col : (⟨Cert.ReferenceIdeal.S4096x1, .i32⟩ : BufTy).Contents (Elt F)) (hcol : ∀ r : Fin 4096, col (jx2 r (0 : Fin 1)) = x (ix1 r))
    (hr : ∀ i : S4096.Idx, 0 ≤ (x i).toInt ∧ (x i).toInt < 50000) (j : S4096x128.Idx) :
    Host.gather Cert.ReferenceIdeal.gather_S50000x128_S4096x1_S4096x128_1_0_n_n_0_1_1128 TI col j
      = TI (jx2 (⟨min (x (ix1 (j 0))).toNat 49999, by omega⟩ : Fin 50000) (j 1)) := by
  refine (gather_rows_apply (N := 50000) (by decide) _ TI _ j).trans ?_
  congr 2
  apply Fin.ext
  refine (congrArg (fun w : BitVec 32 => min w.toInt.toNat (50000 - 1)) (hcol (j 0))).trans ?_
  exact congrArg (fun n : Nat => min n 49999) (toInt_toNat_of_nonneg (hr _).1)

/-- RESULT 1: rows 0 … 4095 of the gathered item rows are the reference's gather of the item table at item_i. -/
theorem out_item_i (TI : (⟨S50000x128, .f32⟩ : BufTy).Contents (Elt F)) (c : Dev nD) (hT : V3 m c main_v27 = TI) (ha3 : a3.1 = tblItems m)
    (hr : ∀ i : S8192.Idx, 0 ≤ (itemIdx m i).toInt ∧ (itemIdx m i).toInt < 50000)
    (hlo : ∀ (i : S8192.Idx) (hi : (i 0).val < 4096), itemIdx m i = itemIArg m (ix1 ⟨(i 0).val, hi⟩)) :
    (W8 m a2 a3 c (Proc.devRef .tc main_v35) : (⟨S4096x128, .f32⟩ : BufTy).Contents (Elt F)) =
      Host.gather Cert.ReferenceIdeal.gather_S50000x128_S4096x1_S4096x128_1_0_n_n_0_1_1128 TI
        (Cert.ReferenceIdeal.Read.val_main_v46 (F := F) (m ((c : Thread nD τ).loc main_arg9))) := by
  funext (j : S4096x128.Idx)
  obtain rfl : c = 0 := Subsingleton.elim _ _
  have hj0 : (j 0).val < 4096 := (j 0).isLt
  have e8 : (W8 m a2 a3 0 (Proc.devRef .tc main_v35) : (⟨S4096x128, .f32⟩ : BufTy).Contents (Elt F))
      = extractStridedSlice S4096x128 ![0, 0]
          (shapeCast S8192x128 (W7 m a2 a3 0 (Proc.devRef .tc main_v33) : (⟨S8192x1x128, .f32⟩ : BufTy).Contents (Elt F)) shapeCasts_S8192x1x128_S8192x128)
          slices_S8192x128_S4096x128_0_0 := by
    show StableHlo.after hostOps4 _ (Proc.devRef .tc main_v35) = _
    after_results
    rfl
  rw [e8]
  refine (extractStridedSlice_apply ![0, 0] _ slices_S8192x128_S4096x128_0_0 j (jx2 (⟨(j 0).val, by omega⟩ : Fin 8192) (j 1))
    (fun a => match a with | ⟨0, _⟩ => (Nat.zero_add _).symm | ⟨1, _⟩ => (Nat.zero_add _).symm)).trans ?_
  refine (kern_items m a2 a3 TI 0 hT _ _).trans ?_
  have hrI : ∀ i : S4096.Idx, 0 ≤ (itemIArg m i).toInt ∧ (itemIArg m i).toInt < 50000 := fun i => by
    have hi0 : (i 0).val < 4096 := (i 0).isLt
    have h := hr (ix1 (⟨(i 0).val, by omega⟩ : Fin 8192))
    have e : itemIdx m (ix1 (⟨(i 0).val, by omega⟩ : Fin 8192)) = itemIArg m i :=
      (hlo (ix1 (⟨(i 0).val, by omega⟩ : Fin 8192)) hi0).trans (congrArg (itemIArg m) (eq_ix1 i).symm)
    rw [e] at h
    exact h
  refine Eq.symm ((ref_items TI (itemIArg m) _ (ref_col_item_i _ (fun i => (hrI i).1)) hrI j).trans ?_)
  have key : (itemIArg m (ix1 (j 0))).toNat = wI a3.1 (⟨(j 0).val, by omega⟩ : Fin 8192) := by
    rw [ha3]
    exact (congrArg BitVec.toNat (hlo (ix1 (⟨(j 0).val, by omega⟩ : Fin 8192)) hj0)).symm
  congr 2
  apply Fin.ext
  exact congrArg (fun n : Nat => min n 49999) key

/-- RESULT 2: rows 4096 … 8191 of the gathered item rows are the reference's gather of the item table at item_j. -/
theorem out_item_j (TI : (⟨S50000x128, .f32⟩ : BufTy).Contents (Elt F)) (c : Dev nD) (hT : V3 m c main_v27 = TI) (ha3 : a3.1 = tblItems m)
    (hr : ∀ i : S8192.Idx, 0 ≤ (itemIdx m i).toInt ∧ (itemIdx m i).toInt < 50000)
    (hhi : ∀ (i : S8192.Idx) (hi : 4096 ≤ (i 0).val), itemIdx m i = itemJArg m (ix1 ⟨(i 0).val - 4096, by have := (i 0).isLt; (first | omega | (simp [S8192] at this; omega))⟩)) :
    (W8 m a2 a3 c (Proc.devRef .tc main_v36) : (⟨S4096x128, .f32⟩ : BufTy).Contents (Elt F)) =
      Host.gather Cert.ReferenceIdeal.gather_S50000x128_S4096x1_S4096x128_1_0_n_n_0_1_1128 TI
        (Cert.ReferenceIdeal.Read.val_main_v53 (F := F) (m ((c : Thread nD τ).loc main_arg10))) := by
  funext (j : S4096x128.Idx)
  obtain rfl : c = 0 := Subsingleton.elim _ _
  have hj0 : (j 0).val < 4096 := (j 0).isLt
  have e8 : (W8 m a2 a3 0 (Proc.devRef .tc main_v36) : (⟨S4096x128, .f32⟩ : BufTy).Contents (Elt F))
      = extractStridedSlice S4096x128 ![4096, 0]
          (shapeCast S8192x128 (W7 m a2 a3 0 (Proc.devRef .tc main_v33) : (⟨S8192x1x128, .f32⟩ : BufTy).Contents (Elt F)) shapeCasts_S8192x1x128_S8192x128)
          slices_S8192x128_S4096x128_4096_0 := by
    show StableHlo.after hostOps4 _ (Proc.devRef .tc main_v36) = _
    after_results
    rfl
  rw [e8]
  refine (extractStridedSlice_apply ![4096, 0] _ slices_S8192x128_S4096x128_4096_0 j (jx2 (⟨4096 + (j 0).val, by omega⟩ : Fin 8192) (j 1))
    (fun a => match a with | ⟨0, _⟩ => rfl | ⟨1, _⟩ => (Nat.zero_add _).symm)).trans ?_
  refine (kern_items m a2 a3 TI 0 hT _ _).trans ?_
  -- position 4096 + p of the concatenated row numbers is item_j's word p
  have hjw : ∀ p : Fin 4096, itemIdx m (ix1 (⟨4096 + p.val, by omega⟩ : Fin 8192)) = itemJArg m (ix1 p) := fun p => by
    have e : (ix1 (⟨4096 + p.val - 4096, by omega⟩ : Fin 4096) : S4096.Idx) = ix1 p := by
      funext d; match d with | ⟨0, _⟩ => exact Fin.ext (by show 4096 + p.val - 4096 = p.val; omega)
    exact (hhi (ix1 (⟨4096 + p.val, by omega⟩ : Fin 8192)) (by show 4096 ≤ 4096 + p.val; omega)).trans (congrArg (itemJArg m) e)
  have hrJ : ∀ i : S4096.Idx, 0 ≤ (itemJArg m i).toInt ∧ (itemJArg m i).toInt < 50000 := fun i => by
    have hi0 : (i 0).val < 4096 := (i 0).isLt
    have h := hr (ix1 (⟨4096 + (i 0).val, by omega⟩ : Fin 8192))
    have e : itemIdx m (ix1 (⟨4096 + (i 0).val, by omega⟩ : Fin 8192)) = itemJArg m i :=
      (hjw (i 0)).trans (congrArg (itemJArg m) (eq_ix1 i).symm)
    rw [e] at h
    exact h
  refine Eq.symm ((ref_items TI (itemJArg m) _ (ref_col_item_j _ (fun i => (hrJ i).1)) hrJ j).trans ?_)
  have key : (itemJArg m (ix1 (j 0))).toNat = wI a3.1 (⟨4096 + (j 0).val, by omega⟩ : Fin 8192) := by
    rw [ha3]
    exact (congrArg BitVec.toNat (hjw (j 0))).symm
  congr 2
  apply Fin.ext
  exact congrArg (fun n : Nat => min n 49999) key

end Cert.KernelIdeal.GatherValue
end
-- ==== Proof.ValueI.lean ====
/-
  The three results at the last boundary are the reference's gather stages of the kernel's own argument arrays.
  The two tables the gathers read hold, entry by entry, what the reference's concatenations hold: the segment sums
  are the same host operations on both sides, and the residual-concat regions write [embedding | sum + embedding ·
  degree].  In range, a row number is neither wrapped nor clamped by the reference, so each gathered row is the row
  the kernel copied.
-/
import proofs.«418848_j35158602285525_2_alg».proof.Proof.FrameI
import proofs.«418848_j35158602285525_2_alg».proof.Proof.SegSumsI
import proofs.«418848_j35158602285525_2_alg».proof.Proof.ConcatValueI
import proofs.«418848_j35158602285525_2_alg».proof.Proof.GatherValueI

set_option maxRecDepth 16384

noncomputable section

namespace Cert.KernelIdeal.Final

open Cert.KernelIdeal Cert.KernelIdeal.Gen Cert.KernelIdeal.Tables
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (h : PreAt m)

/-- The user table when the gathers run: the reference's concatenated user table of the same arguments. -/
theorem usersTable (c : Dev nD) :
    Run.V3 m c main_v26 = Cert.ReferenceIdeal.Read.val_main_v32 (F := F) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) :=
  (Run.W3_of_ne m c main_v26 (by decide)).trans
    (ConcatValue.users_table m _ c (SegSums.V1_arg m c).1 (SegSums.V1_arg m c).2.2.1 (SegSums.aggUsers_eq m c))

/-- The item table likewise. -/
theorem itemsTable (c : Dev nD) :
    Run.V3 m c main_v27 = Cert.ReferenceIdeal.Read.val_main_v33 (F := F) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) :=
  ConcatValue.items_table m _ c
    ((Run.W2_of_ne m c main_arg1 (by decide)).trans (SegSums.V1_arg m c).2.1)
    ((Run.W2_of_ne m c main_arg3 (by decide)).trans (SegSums.V1_arg m c).2.2.2)
    ((Run.W2_of_ne m c main_v25 (by decide)).trans (SegSums.aggItems_eq m c))

/-- The first result: the reference's gather of the user table at the `user` batch. -/
theorem result_users (c : Dev nD) :
    Wend m h c (Proc.devRef .tc main_v30) = Cert.ReferenceIdeal.Read.val_main_v40 (F := F) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) :=
  GatherValue.out_users m (admUsers m h) (admItems m h) _ c (usersTable m c) rfl (fun i => OkOfPre.user_range m h i)

/-- The second result: the reference's gather of the item table at `item_i`. -/
theorem result_item_i (c : Dev nD) :
    Wend m h c (Proc.devRef .tc main_v35) = Cert.ReferenceIdeal.Read.val_main_v47 (F := F) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg9)) :=
  GatherValue.out_item_i m (admUsers m h) (admItems m h) _ c (itemsTable m c) rfl (fun i => OkOfPre.itemIdx_range m h i)
    (fun i hi => OkOfPre.itemIdx_lo m i hi)

/-- The third result: the reference's gather of the item table at `item_j`. -/
theorem result_item_j (c : Dev nD) :
    Wend m h c (Proc.devRef .tc main_v36) = Cert.ReferenceIdeal.Read.val_main_v54 (F := F) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg10)) :=
  GatherValue.out_item_j m (admUsers m h) (admItems m h) _ c (itemsTable m c) rfl (fun i => OkOfPre.itemIdx_range m h i)
    (fun i hi => OkOfPre.itemIdx_hi m i hi)

include h in
/-- THE VALUE RUN: under the precondition every weakly fair execution terminates with the three results at the
    reference's gather stages of the kernel's arguments, and the arguments unchanged. -/
theorem value_run : θ_run defs (onTc (τ := τ) (main (F := F))) ⟨m, fun _ => 0, ρ⟩ (fun r => ∀ c : Dev nD,
      r.2.mem ((c.tc : Thread nD τ).loc main_v30) = Cert.ReferenceIdeal.Read.val_main_v40 (F := F) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8))
      ∧ r.2.mem ((c.tc : Thread nD τ).loc main_v35) = Cert.ReferenceIdeal.Read.val_main_v47 (F := F) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg9))
      ∧ r.2.mem ((c.tc : Thread nD τ).loc main_v36) = Cert.ReferenceIdeal.Read.val_main_v54 (F := F) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c => ⟨
      (hr c _ (Run.mem_uc main_v30 (by decide))).trans (result_users m h c),
      (hr c _ (Run.mem_uc main_v35 (by decide))).trans (result_item_i m h c),
      (hr c _ (Run.mem_uc main_v36 (by decide))).trans (result_item_j m h c),
      (hr c _ (Run.mem_uc main_arg0 (by decide))).trans (Wend_arg m h c main_arg0 (by decide) (by decide) (by decide) (by decide) (Run.W2_in0 m c) (Run.W3_of_ne m c main_arg0 (by decide)) (by decide) (by decide)),
      (hr c _ (Run.mem_uc main_arg1 (by decide))).trans (Wend_arg m h c main_arg1 (by decide) (by decide) (by decide) (by decide) (Run.W2_of_ne m c main_arg1 (by decide)) (Run.W3_in0 m c) (by decide) (by decide)),
      (hr c _ (Run.mem_uc main_arg2 (by decide))).trans (Wend_arg m h c main_arg2 (by decide) (by decide) (by decide) (by decide) (Run.W2_in1 m c) (Run.W3_of_ne m c main_arg2 (by decide)) (by decide) (by decide)),
      (hr c _ (Run.mem_uc main_arg3 (by decide))).trans (Wend_arg m h c main_arg3 (by decide) (by decide) (by decide) (by decide) (Run.W2_of_ne m c main_arg3 (by decide)) (Run.W3_in1 m c) (by decide) (by decide)),
      (hr c _ (Run.mem_uc main_arg4 (by decide))).trans (Wend_arg m h c main_arg4 (by decide) (by decide) (by decide) (by decide) (Run.W2_of_ne m c main_arg4 (by decide)) (Run.W3_of_ne m c main_arg4 (by decide)) (by decide) (by decide)),
      (hr c _ (Run.mem_uc main_arg5 (by decide))).trans (Wend_arg m h c main_arg5 (by decide) (by decide) (by decide) (by decide) (Run.W2_of_ne m c main_arg5 (by decide)) (Run.W3_of_ne m c main_arg5 (by decide)) (by decide) (by decide)),
      (hr c _ (Run.mem_uc main_arg6 (by decide))).trans (Wend_arg m h c main_arg6 (by decide) (by decide) (by decide) (by decide) (Run.W2_of_ne m c main_arg6 (by decide)) (Run.W3_of_ne m c main_arg6 (by decide)) (by decide) (by decide)),
      (hr c _ (Run.mem_uc main_arg7 (by decide))).trans (Wend_arg m h c main_arg7 (by decide) (by decide) (by decide) (by decide) (Run.W2_of_ne m c main_arg7 (by decide)) (Run.W3_of_ne m c main_arg7 (by decide)) (by decide) (by decide)),
      (hr c _ (Run.mem_uc main_arg8 (by decide))).trans (Wend_arg m h c main_arg8 (by decide) (by decide) (by decide) (by decide) (Run.W2_of_ne m c main_arg8 (by decide)) (Run.W3_of_ne m c main_arg8 (by decide)) (by decide) (by decide)),
      (hr c _ (Run.mem_uc main_arg9 (by decide))).trans (Wend_arg m h c main_arg9 (by decide) (by decide) (by decide) (by decide) (Run.W2_of_ne m c main_arg9 (by decide)) (Run.W3_of_ne m c main_arg9 (by decide)) (by decide) (by decide)),
      (hr c _ (Run.mem_uc main_arg10 (by decide))).trans (Wend_arg m h c main_arg10 (by decide) (by decide) (by decide) (by decide) (Run.W2_of_ne m c main_arg10 (by decide)) (Run.W3_of_ne m c main_arg10 (by decide)) (by decide) (by decide))⟩)
    (run m ρ h)

end Cert.KernelIdeal.Final

end
-- ==== Proof.lean ====
/-
  Three programs: the word-level kernel, its reading at the extended reals, and the jnp reference read at the extended
  reals.  The kernel computes two segment sums on the host (as the reference does, with the same operations), then
  runs four kernel regions: two that write the tables [embedding | messages + embedding · degree] for users and for
  items, and two that gather rows of those tables at row numbers prefetched into scalar memory — the `user` batch,
  and `item_i` followed by `item_j`.  Under the precondition (floats finite; every row number in range of its table)
  each gather's blocks lie inside its table, so both kernel programs run to the end with their arguments unchanged,
  and at the extended reals the three gathered results are the reference's own gathers of the same tables: in range a
  row number is neither wrapped nor clamped by the reference, and the tables agree entry by entry because both sides
  apply the same segment sums and the same residual formula.
-/
import proofs.«418848_j35158602285525_2_alg».proof.Defs
import proofs.«418848_j35158602285525_2_alg».proof.Proof.Gen.Kernel
import proofs.«418848_j35158602285525_2_alg».proof.Proof.Gen.KernelIdeal
import proofs.«418848_j35158602285525_2_alg».proof.Proof.Gen.ReferenceIdeal
import proofs.«418848_j35158602285525_2_alg».proof.Proof.Gen.Pre_finite_inputs
import proofs.«418848_j35158602285525_2_alg».proof.Proof.Gen.ReferenceIdeal.Run
import proofs.«418848_j35158602285525_2_alg».proof.Proof.Gen.ReferenceIdeal.Read
import proofs.«418848_j35158602285525_2_alg».proof.Proof.FrameB
import proofs.«418848_j35158602285525_2_alg».proof.Proof.FrameI
import proofs.«418848_j35158602285525_2_alg».proof.Proof.ValueI
import Idealize.ShloMosaic.Adequacy
import Idealize.ShloMosaic.Init

noncomputable section

namespace Cert.Proof

open Idealize.ShloMosaic Idealize.SL.Sem

/-- The word-level kernel runs to the end under the precondition and leaves its arguments unchanged. -/
theorem frame_k : Cert.frame_Kernel := fun m ρ hpre => Cert.Kernel.Final.frame m ρ hpre

/-- So does its reading at the extended reals. -/
theorem frame_ki : Cert.frame_KernelIdeal := fun m ρ hpre => Cert.KernelIdeal.Final.frame m ρ hpre

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the extended reals the kernel's three results are the reference's gather stages of the kernel's own arguments
    (the value run), and the reference's are the same stages of its arguments (its run, each result's term being the
    stage by definition); the arguments agree. -/
theorem algebraic : Cert.algebraic_KernelIdeal_ReferenceIdeal := by
  intro m ρ m' ρ' hpre hagree
  refine ⟨fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)),
    Cert.KernelIdeal.Final.value_run (F := Ideal) m ρ hpre, ?_⟩
  refine (θ_run Cert.ReferenceIdeal.defs _ _).mono (fun r hr c => ?_) (Cert.ReferenceIdeal.Value.run (F := Ideal) m' ρ')
  obtain ⟨h40, h47, h54, hargs⟩ := hr c
  obtain ⟨e0, e1, e2, e3, e4, e5, e6, e7, e8, e9, e10⟩ := hagree c
  refine ⟨?_, ?_, ?_, hargs⟩
  · rw [h40, e0, e1, e2, e4, e6, e7, e8]; rfl
  · rw [h47, e0, e1, e3, e5, e6, e7, e9]; rfl
  · rw [h54, e0, e1, e3, e5, e6, e7, e10]; rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
